-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x128x128 : Shape := ⟨4, ![1, 1, 128, 128]⟩
abbrev S_ : Shape := ⟨0, ![]⟩

class Facts : Prop where
  bcast_S_S1x1x128x128 : S_.BroadcastsInDim S1x1x128x128 (![] : Fin 0 → Fin S1x1x128x128.rank)
  reducesTo_S1x1x128x128_S_d0_1_2_3 : S1x1x128x128.ReducesTo [0, 1, 2, 3] S_
  h_S_ : 0 < S_.numel

variable [Facts]

def fn {F : FTy → Type} [FloatOps F] (main_arg0 : FVec F S1x1x128x128 .f32) (main_arg1 : FVec F S1x1x128x128 .f32) : IVec S_ 1 :=
  let main_v0 : FVec F S1x1x128x128 .f32 := Host.absf main_arg0
  let main_cst : FVec F S_ .f32 := constant S_ .f32 0x7F800000#32
  let main_v1 : FVec F S1x1x128x128 .f32 := broadcastInDim S1x1x128x128 ![] bcast_S_S1x1x128x128 main_cst
  let main_v2 : IVec S1x1x128x128 1 := cmpf .olt main_v0 main_v1
  let main_c : IVec S_ 1 := constantI S_ 1 1#1
  let main_v3 : IVec S_ 1 := (fun x v => Host.reduce IntOp.andi x v reducesTo_S1x1x128x128_S_d0_1_2_3 h_S_) main_v2 main_c
  let main_v4 : FVec F S1x1x128x128 .f32 := Host.absf main_arg1
  let main_cst_0 : FVec F S_ .f32 := constant S_ .f32 0x7F800000#32
  let main_v5 : FVec F S1x1x128x128 .f32 := broadcastInDim S1x1x128x128 ![] bcast_S_S1x1x128x128 main_cst_0
  let main_v6 : IVec S1x1x128x128 1 := cmpf .olt main_v4 main_v5
  let main_c_1 : IVec S_ 1 := constantI S_ 1 1#1
  let main_v7 : IVec S_ 1 := (fun x v => Host.reduce IntOp.andi x v reducesTo_S1x1x128x128_S_d0_1_2_3 h_S_) main_v6 main_c_1
  let main_v8 : IVec S_ 1 := andi main_v3 main_v7
  main_v8
-- ==== Kernel.lean ====
abbrev S1x1x128x128 : Shape := ⟨4, ![1, 1, 128, 128]⟩
abbrev S128x128 : Shape := ⟨2, ![128, 128]⟩
abbrev S64x2x64x2 : Shape := ⟨4, ![64, 2, 64, 2]⟩
abbrev S2x64x2x64 : Shape := ⟨4, ![2, 64, 2, 64]⟩
abbrev S64x64 : Shape := ⟨2, ![64, 64]⟩

abbrev nBuf : Space → Nat
  | .hbm => 12
  | .vmem => 3
  | .smem => 0
  | _ => 0

abbrev bufTy : (tb : Table) → Fin (tcTables nBuf tb) → BufTy
  | .hbm, ⟨0, _⟩ => ⟨S1x1x128x128, .f32⟩
  | .hbm, ⟨1, _⟩ => ⟨S1x1x128x128, .f32⟩
  | .hbm, ⟨2, _⟩ => ⟨S128x128, .f32⟩
  | .hbm, ⟨3, _⟩ => ⟨S128x128, .f32⟩
  | .hbm, ⟨4, _⟩ => ⟨S64x2x64x2, .f32⟩
  | .hbm, ⟨5, _⟩ => ⟨S2x64x2x64, .f32⟩
  | .hbm, ⟨6, _⟩ => ⟨S128x128, .f32⟩
  | .hbm, ⟨7, _⟩ => ⟨S128x128, .f32⟩
  | .hbm, ⟨8, _⟩ => ⟨S2x64x2x64, .f32⟩
  | .hbm, ⟨9, _⟩ => ⟨S64x2x64x2, .f32⟩
  | .hbm, ⟨10, _⟩ => ⟨S128x128, .f32⟩
  | .hbm, ⟨11, _⟩ => ⟨S1x1x128x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | _, _ => ⟨S1x1x128x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_v0 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S1x1x128x128_S128x128 : S1x1x128x128.ShapeCasts S128x128
  shapeCasts_S128x128_S64x2x64x2 : S128x128.ShapeCasts S64x2x64x2
  transposes_S64x2x64x2_S2x64x2x64_1_0_3_2 : S64x2x64x2.Transposes [1, 0, 3, 2] S2x64x2x64
  shapeCasts_S2x64x2x64_S128x128 : S2x64x2x64.ShapeCasts S128x128
  shapeCasts_S128x128_S2x64x2x64 : S128x128.ShapeCasts S2x64x2x64
  transposes_S2x64x2x64_S64x2x64x2_1_0_3_2 : S2x64x2x64.Transposes [1, 0, 3, 2] S64x2x64x2
  shapeCasts_S64x2x64x2_S128x128 : S64x2x64x2.ShapeCasts S128x128
  bcast_S128x128_S1x1x128x128_2_3 : S128x128.BroadcastsInDim S1x1x128x128 (![2, 3] : Fin 2 → Fin S1x1x128x128.rank)
  inb_S128x128_S64x64_0_0 : ∀ a, (![0, 0] : Fin 2 → Nat) a + S64x64.size a ≤ S128x128.size a
  h_S64x64 : 0 < S64x64.numel
  shapeCasts_S64x64_S64x64 : S64x64.ShapeCasts S64x64
  inb_S128x128_S64x64_0_64 : ∀ a, (![0, 64] : Fin 2 → Nat) a + S64x64.size a ≤ S128x128.size a
  inb_S128x128_S64x64_64_0 : ∀ a, (![64, 0] : Fin 2 → Nat) a + S64x64.size a ≤ S128x128.size a
  inb_S128x128_S64x64_64_64 : ∀ a, (![64, 64] : Fin 2 → Nat) a + S64x64.size a ≤ S128x128.size a
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S128x128.size a
  hwx0_0 : ∀ i : grid0.Coords, EltTy.bits .f32 = 32 ∨ (Rect.block (s := S128x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)

variable [Facts₀]

abbrev win0_0 : Pipeline.Window sig grid0 :=
  Pipeline.Window.ofSpec (Memref.whole main_call0_v4) S128x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v5) S128x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x1x128x128 : Shape := ⟨4, ![1, 1, 128, 128]⟩
abbrev S128x128 : Shape := ⟨2, ![128, 128]⟩
abbrev S64x2x64x2 : Shape := ⟨4, ![64, 2, 64, 2]⟩
abbrev S64x1x64x1 : Shape := ⟨4, ![64, 1, 64, 1]⟩
abbrev S64x64 : Shape := ⟨2, ![64, 64]⟩
abbrev S_ : Shape := ⟨0, ![]⟩
abbrev S64x128 : Shape := ⟨2, ![64, 128]⟩
abbrev S64x64x1 : Shape := ⟨3, ![64, 64, 1]⟩
abbrev S64x64x2 : Shape := ⟨3, ![64, 64, 2]⟩
abbrev S64x1x64x2 : Shape := ⟨4, ![64, 1, 64, 2]⟩

abbrev nBuf : Space → Nat
  | .hbm => 80
  | .vmem => 0
  | .smem => 0
  | _ => 0

abbrev bufTy : (tb : Table) → Fin (tcTables nBuf tb) → BufTy
  | .hbm, ⟨0, _⟩ => ⟨S1x1x128x128, .f32⟩
  | .hbm, ⟨1, _⟩ => ⟨S1x1x128x128, .f32⟩
  | .hbm, ⟨2, _⟩ => ⟨S128x128, .f32⟩
  | .hbm, ⟨3, _⟩ => ⟨S64x2x64x2, .f32⟩
  | .hbm, ⟨4, _⟩ => ⟨S64x1x64x1, .f32⟩
  | .hbm, ⟨5, _⟩ => ⟨S64x64, .f32⟩
  | .hbm, ⟨6, _⟩ => ⟨S64x1x64x1, .f32⟩
  | .hbm, ⟨7, _⟩ => ⟨S64x64, .f32⟩
  | .hbm, ⟨8, _⟩ => ⟨S64x1x64x1, .f32⟩
  | .hbm, ⟨9, _⟩ => ⟨S64x64, .f32⟩
  | .hbm, ⟨10, _⟩ => ⟨S64x1x64x1, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S_, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S_, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S_, .f32⟩
  | .hbm, ⟨34, _⟩ => ⟨S64x64, .f32⟩
  | .hbm, ⟨35, _⟩ => ⟨S64x64, .f32⟩
  | .hbm, ⟨36, _⟩ => ⟨S64x128, .f32⟩
  | .hbm, ⟨37, _⟩ => ⟨S64x128, .f32⟩
  | .hbm, ⟨38, _⟩ => ⟨S128x128, .f32⟩
  | .hbm, ⟨39, _⟩ => ⟨S128x128, .f32⟩
  | .hbm, ⟨40, _⟩ => ⟨S128x128, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S_, .f32⟩
  | .hbm, ⟨49, _⟩ => ⟨S64x64, .f32⟩
  | .hbm, ⟨50, _⟩ => ⟨S64x64, .f32⟩
  | .hbm, ⟨51, _⟩ => ⟨S64x64, .f32⟩
  | .hbm, ⟨52, _⟩ => ⟨S64x64, .f32⟩
  | .hbm, ⟨53, _⟩ => ⟨S64x64, .f32⟩
  | .hbm, ⟨54, _⟩ => ⟨S_, .f32⟩
  | .hbm, ⟨55, _⟩ => ⟨S64x64, .f32⟩
  | .hbm, ⟨56, _⟩ => ⟨S64x64, .f32⟩
  | .hbm, ⟨57, _⟩ => ⟨S64x64, .f32⟩
  | .hbm, ⟨58, _⟩ => ⟨S64x64, .f32⟩
  | .hbm, ⟨59, _⟩ => ⟨S64x64, .f32⟩
  | .hbm, ⟨60, _⟩ => ⟨S_, .f32⟩
  | .hbm, ⟨61, _⟩ => ⟨S64x64, .f32⟩
  | .hbm, ⟨62, _⟩ => ⟨S64x64, .f32⟩
  | .hbm, ⟨63, _⟩ => ⟨S64x64, .f32⟩
  | .hbm, ⟨64, _⟩ => ⟨S64x64, .f32⟩
  | .hbm, ⟨65, _⟩ => ⟨S64x64, .f32⟩
  | .hbm, ⟨66, _⟩ => ⟨S_, .f32⟩
  | .hbm, ⟨67, _⟩ => ⟨S64x64, .f32⟩
  | .hbm, ⟨68, _⟩ => ⟨S64x64, .f32⟩
  | .hbm, ⟨69, _⟩ => ⟨S64x64x1, .f32⟩
  | .hbm, ⟨70, _⟩ => ⟨S64x64x1, .f32⟩
  | .hbm, ⟨71, _⟩ => ⟨S64x64x2, .f32⟩
  | .hbm, ⟨72, _⟩ => ⟨S64x64x1, .f32⟩
  | .hbm, ⟨73, _⟩ => ⟨S64x64x1, .f32⟩
  | .hbm, ⟨74, _⟩ => ⟨S64x64x2, .f32⟩
  | .hbm, ⟨75, _⟩ => ⟨S64x1x64x2, .f32⟩
  | .hbm, ⟨76, _⟩ => ⟨S64x1x64x2, .f32⟩
  | .hbm, ⟨77, _⟩ => ⟨S64x2x64x2, .f32⟩
  | .hbm, ⟨78, _⟩ => ⟨S128x128, .f32⟩
  | .hbm, ⟨79, _⟩ => ⟨S1x1x128x128, .f32⟩
  | _, _ => ⟨S1x1x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_1 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_2 : Ref sig .tc := ⟨.hbm, 33, rfl⟩
abbrev main_v28 : Ref sig .tc := ⟨.hbm, 34, rfl⟩
abbrev main_v29 : Ref sig .tc := ⟨.hbm, 35, rfl⟩
abbrev main_call0_v0 : Ref sig .tc := ⟨.hbm, 36, rfl⟩
abbrev main_call0_v1 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_4 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_5 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_6 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩

abbrev nD : Nat := 1
abbrev τ : Topo := Topo.v7x

variable {F : FTy → Type} [FloatOps F]

class Facts₀ : Prop where
  shapeCasts_S1x1x128x128_S128x128 : S1x1x128x128.ShapeCasts S128x128
  shapeCasts_S128x128_S64x2x64x2 : S128x128.ShapeCasts S64x2x64x2
  slices_S64x2x64x2_S64x1x64x1_0_0_0_0 : S64x2x64x2.Slices ![0, 0, 0, 0] S64x1x64x1
  shapeCasts_S64x1x64x1_S64x64 : S64x1x64x1.ShapeCasts S64x64
  slices_S64x2x64x2_S64x1x64x1_0_0_0_1 : S64x2x64x2.Slices ![0, 0, 0, 1] S64x1x64x1
  slices_S64x2x64x2_S64x1x64x1_0_1_0_0 : S64x2x64x2.Slices ![0, 1, 0, 0] S64x1x64x1
  slices_S64x2x64x2_S64x1x64x1_0_1_0_1 : S64x2x64x2.Slices ![0, 1, 0, 1] S64x1x64x1
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  slices_S128x128_S64x64_0_0 : S128x128.Slices ![0, 0] S64x64
  slices_S128x128_S64x64_0_64 : S128x128.Slices ![0, 64] S64x64
  slices_S128x128_S64x64_64_0 : S128x128.Slices ![64, 0] S64x64
  slices_S128x128_S64x64_64_64 : S128x128.Slices ![64, 64] S64x64
  bcast_S64x64_S64x64x1_0_1 : S64x64.BroadcastsInDim S64x64x1 (![0, 1] : Fin 2 → Fin S64x64x1.rank)
  concatenates_S64x64x1_S64x64x1_S64x64x2_d2 : Shape.Concatenates [S64x64x1, S64x64x1] S64x64x2 2
  bcast_S64x64x2_S64x1x64x2_0_2_3 : S64x64x2.BroadcastsInDim S64x1x64x2 (![0, 2, 3] : Fin 3 → Fin S64x1x64x2.rank)
  concatenates_S64x1x64x2_S64x1x64x2_S64x2x64x2_d1 : Shape.Concatenates [S64x1x64x2, S64x1x64x2] S64x2x64x2 1
  shapeCasts_S64x2x64x2_S128x128 : S64x2x64x2.ShapeCasts S128x128
  bcast_S128x128_S1x1x128x128_2_3 : S128x128.BroadcastsInDim S1x1x128x128 (![2, 3] : Fin 2 → Fin S1x1x128x128.rank)

variable [Facts₀]

class Facts : Prop extends Facts₀ where

variable [Facts]
-- ==== Proof.RefRun.lean ====
/-
  The reference's run, stretch by stretch.

  The reference is one straight line of 78 host operations.  Cut into five stretches — the pixels of every
  block, the four sub-bands, the masked mosaic's quadrants, the four output pixels, the interleave — each
  stretch reads only the four arrays the one before it leaves (and the mask), so its effect is four small
  equations: from ANY contents in which those four arrays hold the earlier stages, it leaves its own four
  arrays at the next stages (the stage functions `val_<buffer>` of the two arguments), and it leaves the
  arguments alone.  Chained, the whole line leaves the result array at the last stage.
-/
import proofs.«428757_j74019466379564_3_alg».proof.Proof.RefRunHead
import proofs.«428757_j74019466379564_3_alg».proof.Proof.RefRead
import Idealize.ShloMosaic.Lib.Pipeline.Frame

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The reference's operations in five stretches, cut where one stage's arrays are all the next one reads -/

/-- The image reshaped to blocks and the four pixels of every block sliced out. -/
abbrev pixels : List (HloOp τ sig (Elt F)) :=
  [ reshape main_arg0 main_v0 rfl shapeCasts_S1x1x128x128_S128x128,
    reshape main_v0 main_v1 rfl shapeCasts_S128x128_S64x2x64x2,
    unary main_v1 main_v2 ((extractStridedSlice S64x1x64x1 ![0, 0, 0, 0] · slices_S64x2x64x2_S64x1x64x1_0_0_0_0) : (⟨S64x2x64x2, .f32⟩ : BufTy).Contents (Elt F) → (⟨S64x1x64x1, .f32⟩ : BufTy).Contents (Elt F)),
    reshape main_v2 main_v3 rfl shapeCasts_S64x1x64x1_S64x64,
    unary main_v1 main_v4 ((extractStridedSlice S64x1x64x1 ![0, 0, 0, 1] · slices_S64x2x64x2_S64x1x64x1_0_0_0_1) : (⟨S64x2x64x2, .f32⟩ : BufTy).Contents (Elt F) → (⟨S64x1x64x1, .f32⟩ : BufTy).Contents (Elt F)),
    reshape main_v4 main_v5 rfl shapeCasts_S64x1x64x1_S64x64,
    unary main_v1 main_v6 ((extractStridedSlice S64x1x64x1 ![0, 1, 0, 0] · slices_S64x2x64x2_S64x1x64x1_0_1_0_0) : (⟨S64x2x64x2, .f32⟩ : BufTy).Contents (Elt F) → (⟨S64x1x64x1, .f32⟩ : BufTy).Contents (Elt F)),
    reshape main_v6 main_v7 rfl shapeCasts_S64x1x64x1_S64x64,
    unary main_v1 main_v8 ((extractStridedSlice S64x1x64x1 ![0, 1, 0, 1] · slices_S64x2x64x2_S64x1x64x1_0_1_0_1) : (⟨S64x2x64x2, .f32⟩ : BufTy).Contents (Elt F) → (⟨S64x1x64x1, .f32⟩ : BufTy).Contents (Elt F)),
    reshape main_v8 main_v9 rfl shapeCasts_S64x1x64x1_S64x64 ]
/-- The four sub-bands. -/
abbrev bands : List (HloOp τ sig (Elt F)) :=
  [ binary main_v3 main_v5 main_v10 (addf : (⟨S64x64, .f32⟩ : BufTy).Contents (Elt F) → (⟨S64x64, .f32⟩ : BufTy).Contents (Elt F) → (⟨S64x64, .f32⟩ : BufTy).Contents (Elt F)),
    binary main_v10 main_v7 main_v11 (addf : (⟨S64x64, .f32⟩ : BufTy).Contents (Elt F) → (⟨S64x64, .f32⟩ : BufTy).Contents (Elt F) → (⟨S64x64, .f32⟩ : BufTy).Contents (Elt F)),
    binary main_v11 main_v9 main_v12 (addf : (⟨S64x64, .f32⟩ : BufTy).Contents (Elt F) → (⟨S64x64, .f32⟩ : BufTy).Contents (Elt F) → (⟨S64x64, .f32⟩ : BufTy).Contents (Elt F)),
    nullary main_cst (constant S_ .f32 0x3F000000#32),
    unary main_cst main_v13 (broadcastInDim S64x64 ![] bcast_S_S64x64 : (⟨S_, .f32⟩ : BufTy).Contents (Elt F) → (⟨S64x64, .f32⟩ : BufTy).Contents (Elt F)),
    binary main_v12 main_v13 main_v14 (mulf : (⟨S64x64, .f32⟩ : BufTy).Contents (Elt F) → (⟨S64x64, .f32⟩ : BufTy).Contents (Elt F) → (⟨S64x64, .f32⟩ : BufTy).Contents (Elt F)),
    binary main_v3 main_v5 main_v15 (addf : (⟨S64x64, .f32⟩ : BufTy).Contents (Elt F) → (⟨S64x64, .f32⟩ : BufTy).Contents (Elt F) → (⟨S64x64, .f32⟩ : BufTy).Contents (Elt F)),
    binary main_v15 main_v7 main_v16 (subf : (⟨S64x64, .f32⟩ : BufTy).Contents (Elt F) → (⟨S64x64, .f32⟩ : BufTy).Contents (Elt F) → (⟨S64x64, .f32⟩ : BufTy).Contents (Elt F)),
    binary main_v16 main_v9 main_v17 (subf : (⟨S64x64, .f32⟩ : BufTy).Contents (Elt F) → (⟨S64x64, .f32⟩ : BufTy).Contents (Elt F) → (⟨S64x64, .f32⟩ : BufTy).Contents (Elt F)),
    nullary main_cst_0 (constant S_ .f32 0x3F000000#32),
    unary main_cst_0 main_v18 (broadcastInDim S64x64 ![] bcast_S_S64x64 : (⟨S_, .f32⟩ : BufTy).Contents (Elt F) → (⟨S64x64, .f32⟩ : BufTy).Contents (Elt F)),
    binary main_v17 main_v18 main_v19 (mulf : (⟨S64x64, .f32⟩ : BufTy).Contents (Elt F) → (⟨S64x64, .f32⟩ : BufTy).Contents (Elt F) → (⟨S64x64, .f32⟩ : BufTy).Contents (Elt F)),
    binary main_v3 main_v5 main_v20 (subf : (⟨S64x64, .f32⟩ : BufTy).Contents (Elt F) → (⟨S64x64, .f32⟩ : BufTy).Contents (Elt F) → (⟨S64x64, .f32⟩ : BufTy).Contents (Elt F)),
    binary main_v20 main_v7 main_v21 (addf : (⟨S64x64, .f32⟩ : BufTy).Contents (Elt F) → (⟨S64x64, .f32⟩ : BufTy).Contents (Elt F) → (⟨S64x64, .f32⟩ : BufTy).Contents (Elt F)),
    binary main_v21 main_v9 main_v22 (subf : (⟨S64x64, .f32⟩ : BufTy).Contents (Elt F) → (⟨S64x64, .f32⟩ : BufTy).Contents (Elt F) → (⟨S64x64, .f32⟩ : BufTy).Contents (Elt F)),
    nullary main_cst_1 (constant S_ .f32 0x3F000000#32),
    unary main_cst_1 main_v23 (broadcastInDim S64x64 ![] bcast_S_S64x64 : (⟨S_, .f32⟩ : BufTy).Contents (Elt F) → (⟨S64x64, .f32⟩ : BufTy).Contents (Elt F)),
    binary main_v22 main_v23 main_v24 (mulf : (⟨S64x64, .f32⟩ : BufTy).Contents (Elt F) → (⟨S64x64, .f32⟩ : BufTy).Contents (Elt F) → (⟨S64x64, .f32⟩ : BufTy).Contents (Elt F)),
    binary main_v3 main_v5 main_v25 (subf : (⟨S64x64, .f32⟩ : BufTy).Contents (Elt F) → (⟨S64x64, .f32⟩ : BufTy).Contents (Elt F) → (⟨S64x64, .f32⟩ : BufTy).Contents (Elt F)),
    binary main_v25 main_v7 main_v26 (subf : (⟨S64x64, .f32⟩ : BufTy).Contents (Elt F) → (⟨S64x64, .f32⟩ : BufTy).Contents (Elt F) → (⟨S64x64, .f32⟩ : BufTy).Contents (Elt F)),
    binary main_v26 main_v9 main_v27 (addf : (⟨S64x64, .f32⟩ : BufTy).Contents (Elt F) → (⟨S64x64, .f32⟩ : BufTy).Contents (Elt F) → (⟨S64x64, .f32⟩ : BufTy).Contents (Elt F)),
    nullary main_cst_2 (constant S_ .f32 0x3F000000#32),
    unary main_cst_2 main_v28 (broadcastInDim S64x64 ![] bcast_S_S64x64 : (⟨S_, .f32⟩ : BufTy).Contents (Elt F) → (⟨S64x64, .f32⟩ : BufTy).Contents (Elt F)),
    binary main_v27 main_v28 main_v29 (mulf : (⟨S64x64, .f32⟩ : BufTy).Contents (Elt F) → (⟨S64x64, .f32⟩ : BufTy).Contents (Elt F) → (⟨S64x64, .f32⟩ : BufTy).Contents (Elt F)) ]
/-- The mosaic, its product with the mask, and the product's four quadrants. -/
abbrev masked : List (HloOp τ sig (Elt F)) :=
  [ TRef.binary (TRef.of (T := ⟨S64x64, .f32⟩) main_v14) (TRef.of (T := ⟨S64x64, .f32⟩) main_v19) (TRef.of (T := ⟨S64x128, .f32⟩) main_call0_v0) (fun a b => concatenate S64x128 1 [⟨S64x64, a⟩, ⟨S64x64, b⟩] concatenates_S64x64_S64x64_S64x128_d1),
    TRef.binary (TRef.of (T := ⟨S64x64, .f32⟩) main_v24) (TRef.of (T := ⟨S64x64, .f32⟩) main_v29) (TRef.of (T := ⟨S64x128, .f32⟩) main_call0_v1) (fun a b => concatenate S64x128 1 [⟨S64x64, a⟩, ⟨S64x64, b⟩] concatenates_S64x64_S64x64_S64x128_d1),
    TRef.binary (TRef.of (T := ⟨S64x128, .f32⟩) main_call0_v0) (TRef.of (T := ⟨S64x128, .f32⟩) main_call0_v1) (TRef.of (T := ⟨S128x128, .f32⟩) main_v30) (fun a b => concatenate S128x128 0 [⟨S64x128, a⟩, ⟨S64x128, b⟩] concatenates_S64x128_S64x128_S128x128_d0),
    reshape main_arg1 main_v31 rfl shapeCasts_S1x1x128x128_S128x128,
    binary main_v30 main_v31 main_v32 (mulf : (⟨S128x128, .f32⟩ : BufTy).Contents (Elt F) → (⟨S128x128, .f32⟩ : BufTy).Contents (Elt F) → (⟨S128x128, .f32⟩ : BufTy).Contents (Elt F)),
    unary main_v32 main_v33 ((extractStridedSlice S64x64 ![0, 0] · slices_S128x128_S64x64_0_0) : (⟨S128x128, .f32⟩ : BufTy).Contents (Elt F) → (⟨S64x64, .f32⟩ : BufTy).Contents (Elt F)),
    unary main_v32 main_v34 ((extractStridedSlice S64x64 ![0, 64] · slices_S128x128_S64x64_0_64) : (⟨S128x128, .f32⟩ : BufTy).Contents (Elt F) → (⟨S64x64, .f32⟩ : BufTy).Contents (Elt F)),
    unary main_v32 main_v35 ((extractStridedSlice S64x64 ![64, 0] · slices_S128x128_S64x64_64_0) : (⟨S128x128, .f32⟩ : BufTy).Contents (Elt F) → (⟨S64x64, .f32⟩ : BufTy).Contents (Elt F)),
    unary main_v32 main_v36 ((extractStridedSlice S64x64 ![64, 64] · slices_S128x128_S64x64_64_64) : (⟨S128x128, .f32⟩ : BufTy).Contents (Elt F) → (⟨S64x64, .f32⟩ : BufTy).Contents (Elt F)) ]
/-- The four output pixels of every block. -/
abbrev outputs : List (HloOp τ sig (Elt F)) :=
  [ binary main_v33 main_v34 main_v37 (addf : (⟨S64x64, .f32⟩ : BufTy).Contents (Elt F) → (⟨S64x64, .f32⟩ : BufTy).Contents (Elt F) → (⟨S64x64, .f32⟩ : BufTy).Contents (Elt F)),
    binary main_v37 main_v35 main_v38 (addf : (⟨S64x64, .f32⟩ : BufTy).Contents (Elt F) → (⟨S64x64, .f32⟩ : BufTy).Contents (Elt F) → (⟨S64x64, .f32⟩ : BufTy).Contents (Elt F)),
    binary main_v38 main_v36 main_v39 (addf : (⟨S64x64, .f32⟩ : BufTy).Contents (Elt F) → (⟨S64x64, .f32⟩ : BufTy).Contents (Elt F) → (⟨S64x64, .f32⟩ : BufTy).Contents (Elt F)),
    nullary main_cst_3 (constant S_ .f32 0x3F000000#32),
    unary main_cst_3 main_v40 (broadcastInDim S64x64 ![] bcast_S_S64x64 : (⟨S_, .f32⟩ : BufTy).Contents (Elt F) → (⟨S64x64, .f32⟩ : BufTy).Contents (Elt F)),
    binary main_v39 main_v40 main_v41 (mulf : (⟨S64x64, .f32⟩ : BufTy).Contents (Elt F) → (⟨S64x64, .f32⟩ : BufTy).Contents (Elt F) → (⟨S64x64, .f32⟩ : BufTy).Contents (Elt F)),
    binary main_v33 main_v34 main_v42 (addf : (⟨S64x64, .f32⟩ : BufTy).Contents (Elt F) → (⟨S64x64, .f32⟩ : BufTy).Contents (Elt F) → (⟨S64x64, .f32⟩ : BufTy).Contents (Elt F)),
    binary main_v42 main_v35 main_v43 (subf : (⟨S64x64, .f32⟩ : BufTy).Contents (Elt F) → (⟨S64x64, .f32⟩ : BufTy).Contents (Elt F) → (⟨S64x64, .f32⟩ : BufTy).Contents (Elt F)),
    binary main_v43 main_v36 main_v44 (subf : (⟨S64x64, .f32⟩ : BufTy).Contents (Elt F) → (⟨S64x64, .f32⟩ : BufTy).Contents (Elt F) → (⟨S64x64, .f32⟩ : BufTy).Contents (Elt F)),
    nullary main_cst_4 (constant S_ .f32 0x3F000000#32),
    unary main_cst_4 main_v45 (broadcastInDim S64x64 ![] bcast_S_S64x64 : (⟨S_, .f32⟩ : BufTy).Contents (Elt F) → (⟨S64x64, .f32⟩ : BufTy).Contents (Elt F)),
    binary main_v44 main_v45 main_v46 (mulf : (⟨S64x64, .f32⟩ : BufTy).Contents (Elt F) → (⟨S64x64, .f32⟩ : BufTy).Contents (Elt F) → (⟨S64x64, .f32⟩ : BufTy).Contents (Elt F)),
    binary main_v33 main_v34 main_v47 (subf : (⟨S64x64, .f32⟩ : BufTy).Contents (Elt F) → (⟨S64x64, .f32⟩ : BufTy).Contents (Elt F) → (⟨S64x64, .f32⟩ : BufTy).Contents (Elt F)),
    binary main_v47 main_v35 main_v48 (addf : (⟨S64x64, .f32⟩ : BufTy).Contents (Elt F) → (⟨S64x64, .f32⟩ : BufTy).Contents (Elt F) → (⟨S64x64, .f32⟩ : BufTy).Contents (Elt F)),
    binary main_v48 main_v36 main_v49 (subf : (⟨S64x64, .f32⟩ : BufTy).Contents (Elt F) → (⟨S64x64, .f32⟩ : BufTy).Contents (Elt F) → (⟨S64x64, .f32⟩ : BufTy).Contents (Elt F)),
    nullary main_cst_5 (constant S_ .f32 0x3F000000#32),
    unary main_cst_5 main_v50 (broadcastInDim S64x64 ![] bcast_S_S64x64 : (⟨S_, .f32⟩ : BufTy).Contents (Elt F) → (⟨S64x64, .f32⟩ : BufTy).Contents (Elt F)),
    binary main_v49 main_v50 main_v51 (mulf : (⟨S64x64, .f32⟩ : BufTy).Contents (Elt F) → (⟨S64x64, .f32⟩ : BufTy).Contents (Elt F) → (⟨S64x64, .f32⟩ : BufTy).Contents (Elt F)),
    binary main_v33 main_v34 main_v52 (subf : (⟨S64x64, .f32⟩ : BufTy).Contents (Elt F) → (⟨S64x64, .f32⟩ : BufTy).Contents (Elt F) → (⟨S64x64, .f32⟩ : BufTy).Contents (Elt F)),
    binary main_v52 main_v35 main_v53 (subf : (⟨S64x64, .f32⟩ : BufTy).Contents (Elt F) → (⟨S64x64, .f32⟩ : BufTy).Contents (Elt F) → (⟨S64x64, .f32⟩ : BufTy).Contents (Elt F)),
    binary main_v53 main_v36 main_v54 (addf : (⟨S64x64, .f32⟩ : BufTy).Contents (Elt F) → (⟨S64x64, .f32⟩ : BufTy).Contents (Elt F) → (⟨S64x64, .f32⟩ : BufTy).Contents (Elt F)),
    nullary main_cst_6 (constant S_ .f32 0x3F000000#32),
    unary main_cst_6 main_v55 (broadcastInDim S64x64 ![] bcast_S_S64x64 : (⟨S_, .f32⟩ : BufTy).Contents (Elt F) → (⟨S64x64, .f32⟩ : BufTy).Contents (Elt F)),
    binary main_v54 main_v55 main_v56 (mulf : (⟨S64x64, .f32⟩ : BufTy).Contents (Elt F) → (⟨S64x64, .f32⟩ : BufTy).Contents (Elt F) → (⟨S64x64, .f32⟩ : BufTy).Contents (Elt F)) ]
/-- The interleave back to one image. -/
abbrev interleave : List (HloOp τ sig (Elt F)) :=
  [ unary main_v41 main_v57 (broadcastInDim S64x64x1 ![0, 1] bcast_S64x64_S64x64x1_0_1 : (⟨S64x64, .f32⟩ : BufTy).Contents (Elt F) → (⟨S64x64x1, .f32⟩ : BufTy).Contents (Elt F)),
    unary main_v46 main_v58 (broadcastInDim S64x64x1 ![0, 1] bcast_S64x64_S64x64x1_0_1 : (⟨S64x64, .f32⟩ : BufTy).Contents (Elt F) → (⟨S64x64x1, .f32⟩ : BufTy).Contents (Elt F)),
    binary main_v57 main_v58 main_v59 ((fun a b => concatenate S64x64x2 2 [⟨S64x64x1, a⟩, ⟨S64x64x1, b⟩] concatenates_S64x64x1_S64x64x1_S64x64x2_d2) : (⟨S64x64x1, .f32⟩ : BufTy).Contents (Elt F) → (⟨S64x64x1, .f32⟩ : BufTy).Contents (Elt F) → (⟨S64x64x2, .f32⟩ : BufTy).Contents (Elt F)),
    unary main_v51 main_v60 (broadcastInDim S64x64x1 ![0, 1] bcast_S64x64_S64x64x1_0_1 : (⟨S64x64, .f32⟩ : BufTy).Contents (Elt F) → (⟨S64x64x1, .f32⟩ : BufTy).Contents (Elt F)),
    unary main_v56 main_v61 (broadcastInDim S64x64x1 ![0, 1] bcast_S64x64_S64x64x1_0_1 : (⟨S64x64, .f32⟩ : BufTy).Contents (Elt F) → (⟨S64x64x1, .f32⟩ : BufTy).Contents (Elt F)),
    binary main_v60 main_v61 main_v62 ((fun a b => concatenate S64x64x2 2 [⟨S64x64x1, a⟩, ⟨S64x64x1, b⟩] concatenates_S64x64x1_S64x64x1_S64x64x2_d2) : (⟨S64x64x1, .f32⟩ : BufTy).Contents (Elt F) → (⟨S64x64x1, .f32⟩ : BufTy).Contents (Elt F) → (⟨S64x64x2, .f32⟩ : BufTy).Contents (Elt F)),
    unary main_v59 main_v63 (broadcastInDim S64x1x64x2 ![0, 2, 3] bcast_S64x64x2_S64x1x64x2_0_2_3 : (⟨S64x64x2, .f32⟩ : BufTy).Contents (Elt F) → (⟨S64x1x64x2, .f32⟩ : BufTy).Contents (Elt F)),
    unary main_v62 main_v64 (broadcastInDim S64x1x64x2 ![0, 2, 3] bcast_S64x64x2_S64x1x64x2_0_2_3 : (⟨S64x64x2, .f32⟩ : BufTy).Contents (Elt F) → (⟨S64x1x64x2, .f32⟩ : BufTy).Contents (Elt F)),
    binary main_v63 main_v64 main_v65 ((fun a b => concatenate S64x2x64x2 1 [⟨S64x1x64x2, a⟩, ⟨S64x1x64x2, b⟩] concatenates_S64x1x64x2_S64x1x64x2_S64x2x64x2_d1) : (⟨S64x1x64x2, .f32⟩ : BufTy).Contents (Elt F) → (⟨S64x1x64x2, .f32⟩ : BufTy).Contents (Elt F) → (⟨S64x2x64x2, .f32⟩ : BufTy).Contents (Elt F)),
    reshape main_v65 main_v66 rfl shapeCasts_S64x2x64x2_S128x128,
    unary main_v66 main_v67 (broadcastInDim S1x1x128x128 ![2, 3] bcast_S128x128_S1x1x128x128_2_3 : (⟨S128x128, .f32⟩ : BufTy).Contents (Elt F) → (⟨S1x1x128x128, .f32⟩ : BufTy).Contents (Elt F)) ]

theorem ops_split : (ops : List (HloOp τ sig (Elt F))) = pixels ++ (bands ++ (masked ++ (outputs ++ interleave))) := rfl

variable (W : Valuation τ sig (Elt F))

/-! ## Each stretch, from any contents: what it leaves in the arrays the next one reads -/

theorem pixels_v3 : after pixels W (Proc.devRef .tc main_v3) = val_main_v3 (F := F) (W (Proc.devRef .tc main_arg0)) := by
  after_results <;> rfl
theorem pixels_v5 : after pixels W (Proc.devRef .tc main_v5) = val_main_v5 (F := F) (W (Proc.devRef .tc main_arg0)) := by
  after_results <;> rfl
theorem pixels_v7 : after pixels W (Proc.devRef .tc main_v7) = val_main_v7 (F := F) (W (Proc.devRef .tc main_arg0)) := by
  after_results <;> rfl
theorem pixels_v9 : after pixels W (Proc.devRef .tc main_v9) = val_main_v9 (F := F) (W (Proc.devRef .tc main_arg0)) := by
  after_results <;> rfl
theorem pixels_arg0 : after pixels W (Proc.devRef .tc main_arg0) = W (Proc.devRef .tc main_arg0) := by
  after_results <;> rfl
theorem pixels_arg1 : after pixels W (Proc.devRef .tc main_arg1) = W (Proc.devRef .tc main_arg1) := by
  after_results <;> rfl

section Bands
variable (x : (⟨S1x1x128x128, .f32⟩ : BufTy).Contents (Elt F))
  (h3 : W (Proc.devRef .tc main_v3) = val_main_v3 (F := F) x) (h5 : W (Proc.devRef .tc main_v5) = val_main_v5 (F := F) x)
  (h7 : W (Proc.devRef .tc main_v7) = val_main_v7 (F := F) x) (h9 : W (Proc.devRef .tc main_v9) = val_main_v9 (F := F) x)
include h3 h5 h7 h9
set_option maxHeartbeats 1000000 in
theorem bands_v14 : after bands W (Proc.devRef .tc main_v14) = val_main_v14 (F := F) x := by
  after_results; rw [h3, h5, h7, h9]; rfl
set_option maxHeartbeats 1000000 in
theorem bands_v19 : after bands W (Proc.devRef .tc main_v19) = val_main_v19 (F := F) x := by
  after_results; rw [h3, h5, h7, h9]; rfl
set_option maxHeartbeats 1000000 in
theorem bands_v24 : after bands W (Proc.devRef .tc main_v24) = val_main_v24 (F := F) x := by
  after_results; rw [h3, h5, h7, h9]; rfl
set_option maxHeartbeats 1000000 in
theorem bands_v29 : after bands W (Proc.devRef .tc main_v29) = val_main_v29 (F := F) x := by
  after_results; rw [h3, h5, h7, h9]; rfl
end Bands
theorem bands_arg0 : after bands W (Proc.devRef .tc main_arg0) = W (Proc.devRef .tc main_arg0) := by
  after_results <;> rfl
theorem bands_arg1 : after bands W (Proc.devRef .tc main_arg1) = W (Proc.devRef .tc main_arg1) := by
  after_results <;> rfl

section Masked
variable (x w : (⟨S1x1x128x128, .f32⟩ : BufTy).Contents (Elt F))
  (h14 : W (Proc.devRef .tc main_v14) = val_main_v14 (F := F) x) (h19 : W (Proc.devRef .tc main_v19) = val_main_v19 (F := F) x)
  (h24 : W (Proc.devRef .tc main_v24) = val_main_v24 (F := F) x) (h29 : W (Proc.devRef .tc main_v29) = val_main_v29 (F := F) x)
  (h1 : W (Proc.devRef .tc main_arg1) = w)
include h14 h19 h24 h29 h1
theorem masked_v33 : after masked W (Proc.devRef .tc main_v33) = val_main_v33 (F := F) x w := by
  after_results; rw [h14, h19, h24, h29, h1]; rfl
theorem masked_v34 : after masked W (Proc.devRef .tc main_v34) = val_main_v34 (F := F) x w := by
  after_results; rw [h14, h19, h24, h29, h1]; rfl
theorem masked_v35 : after masked W (Proc.devRef .tc main_v35) = val_main_v35 (F := F) x w := by
  after_results; rw [h14, h19, h24, h29, h1]; rfl
theorem masked_v36 : after masked W (Proc.devRef .tc main_v36) = val_main_v36 (F := F) x w := by
  after_results; rw [h14, h19, h24, h29, h1]; rfl
end Masked
theorem masked_arg0 : after masked W (Proc.devRef .tc main_arg0) = W (Proc.devRef .tc main_arg0) := by
  after_results <;> rfl
theorem masked_arg1 : after masked W (Proc.devRef .tc main_arg1) = W (Proc.devRef .tc main_arg1) := by
  after_results <;> rfl

section Outputs
variable (x w : (⟨S1x1x128x128, .f32⟩ : BufTy).Contents (Elt F))
  (h33 : W (Proc.devRef .tc main_v33) = val_main_v33 (F := F) x w) (h34 : W (Proc.devRef .tc main_v34) = val_main_v34 (F := F) x w)
  (h35 : W (Proc.devRef .tc main_v35) = val_main_v35 (F := F) x w) (h36 : W (Proc.devRef .tc main_v36) = val_main_v36 (F := F) x w)
include h33 h34 h35 h36
set_option maxHeartbeats 1000000 in
theorem outputs_v41 : after outputs W (Proc.devRef .tc main_v41) = val_main_v41 (F := F) x w := by
  after_results; rw [h33, h34, h35, h36]; rfl
set_option maxHeartbeats 1000000 in
theorem outputs_v46 : after outputs W (Proc.devRef .tc main_v46) = val_main_v46 (F := F) x w := by
  after_results; rw [h33, h34, h35, h36]; rfl
set_option maxHeartbeats 1000000 in
theorem outputs_v51 : after outputs W (Proc.devRef .tc main_v51) = val_main_v51 (F := F) x w := by
  after_results; rw [h33, h34, h35, h36]; rfl
set_option maxHeartbeats 1000000 in
theorem outputs_v56 : after outputs W (Proc.devRef .tc main_v56) = val_main_v56 (F := F) x w := by
  after_results; rw [h33, h34, h35, h36]; rfl
end Outputs
theorem outputs_arg0 : after outputs W (Proc.devRef .tc main_arg0) = W (Proc.devRef .tc main_arg0) := by
  after_results <;> rfl
theorem outputs_arg1 : after outputs W (Proc.devRef .tc main_arg1) = W (Proc.devRef .tc main_arg1) := by
  after_results <;> rfl

section Interleave
variable (x w : (⟨S1x1x128x128, .f32⟩ : BufTy).Contents (Elt F))
  (h41 : W (Proc.devRef .tc main_v41) = val_main_v41 (F := F) x w) (h46 : W (Proc.devRef .tc main_v46) = val_main_v46 (F := F) x w)
  (h51 : W (Proc.devRef .tc main_v51) = val_main_v51 (F := F) x w) (h56 : W (Proc.devRef .tc main_v56) = val_main_v56 (F := F) x w)
include h41 h46 h51 h56
theorem interleave_v67 : after interleave W (Proc.devRef .tc main_v67) = val_main_v67 (F := F) x w := by
  after_results; rw [h41, h46, h51, h56]; rfl
end Interleave
theorem interleave_arg0 : after interleave W (Proc.devRef .tc main_arg0) = W (Proc.devRef .tc main_arg0) := by
  after_results <;> rfl
theorem interleave_arg1 : after interleave W (Proc.devRef .tc main_arg1) = W (Proc.devRef .tc main_arg1) := by
  after_results <;> rfl

/-! ## The whole line -/

theorem after_ops : after (ops : List (HloOp τ sig (Elt F))) W
    = after interleave (after outputs (after masked (after bands (after pixels W)))) := by
  rw [ops_split, StableHlo.after_append, StableHlo.after_append, StableHlo.after_append, StableHlo.after_append]

theorem fold_arg0 : after (ops : List (HloOp τ sig (Elt F))) W (Proc.devRef .tc main_arg0) = W (Proc.devRef .tc main_arg0) := by
  rw [after_ops, interleave_arg0, outputs_arg0, masked_arg0, bands_arg0, pixels_arg0]
theorem fold_arg1 : after (ops : List (HloOp τ sig (Elt F))) W (Proc.devRef .tc main_arg1) = W (Proc.devRef .tc main_arg1) := by
  rw [after_ops, interleave_arg1, outputs_arg1, masked_arg1, bands_arg1, pixels_arg1]

/-- The result of the whole line is the last stage, of the two arguments as the line finds them. -/
theorem fold_v67 : after (ops : List (HloOp τ sig (Elt F))) W (Proc.devRef .tc main_v67)
    = val_main_v67 (F := F) (W (Proc.devRef .tc main_arg0)) (W (Proc.devRef .tc main_arg1)) := by
  rw [after_ops]
  have a3 := pixels_v3 W; have a5 := pixels_v5 W; have a7 := pixels_v7 W; have a9 := pixels_v9 W
  have a1 := pixels_arg1 W
  have b14 := bands_v14 _ _ a3 a5 a7 a9; have b19 := bands_v19 _ _ a3 a5 a7 a9
  have b24 := bands_v24 _ _ a3 a5 a7 a9; have b29 := bands_v29 _ _ a3 a5 a7 a9
  have b1 := (bands_arg1 (after pixels W)).trans a1
  have d33 := masked_v33 _ _ _ b14 b19 b24 b29 b1; have d34 := masked_v34 _ _ _ b14 b19 b24 b29 b1
  have d35 := masked_v35 _ _ _ b14 b19 b24 b29 b1; have d36 := masked_v36 _ _ _ b14 b19 b24 b29 b1
  have e41 := outputs_v41 _ _ _ d33 d34 d35 d36; have e46 := outputs_v46 _ _ _ d33 d34 d35 d36
  have e51 := outputs_v51 _ _ _ d33 d34 d35 d36; have e56 := outputs_v56 _ _ _ d33 d34 d35 d36
  exact interleave_v67 _ _ _ e41 e46 e51 e56

/-- No operation of the line allocates. -/
theorem ops_fresh : ∀ op ∈ (ops : List (HloOp τ sig (Elt F))), op.fresh = ∅ :=
  List.forall_iff_forall_mem.mp (by simp only [List.Forall]; repeat' constructor)

/-- On every device, from any memory with zero counters: every weakly fair execution of the reference terminates with
    its result at the last stage of the two arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67)
        = val_main_v67 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v67).trans (fold_v67 _), (h c main_arg0).trans (fold_arg0 _),
      (h c main_arg1).trans (fold_arg1 _)⟩)
    (run_seq scopedRefs_eq scopedSems_eq defs main (fun _ => ops) main_eq (fun _ => ops_sub) m ρ (fun _ => ops_fresh))

end Cert.ReferenceIdeal.RefRun

end
-- ==== Proof.Haar.lean ====
/-
  The level-1 two-dimensional Haar transform on 2×2 blocks, the masking of its four sub-bands, and the
  inverse transform — as plain functions on the extended reals, with no program in sight.

  A 128×128 image is cut into 64×64 blocks of 2×2 pixels; block (i, j) holds the pixels
  (2i + r, 2j + s), r, s ∈ {0, 1}.  The orthonormal Haar butterfly sends the four pixels
  a, b, c, d of a block to
      (a + b + c + d)/2,  (a + b − c − d)/2,  (a − b + c − d)/2,  (a − b − c + d)/2
  (the four sub-bands LL, LH, HL, HH at (i, j)); each sub-band is multiplied by the mask entry of its own
  quadrant of the 128×128 mask — quadrant (r, s) holds the entries (64 r + i, 64 s + j) —, and the SAME
  butterfly applied to the four masked values gives back the four pixels of the output block.
  Both programs compute exactly this, sum by sum in this order; they differ only in where they keep
  the numbers.  Nothing here needs the inputs to be finite: no sum is regrouped.
-/
import Idealize.ShloMosaic.PureOps.Ideal
import Idealize.ShloMosaic.Lib.ValueIdx

noncomputable section

namespace Cert.Haar

open Idealize.ShloMosaic Idealize.ShloMosaic.ValueIdx

/-- The shape of the image, of the mask and of the result. -/
abbrev Img : Shape := ⟨4, ![1, 1, 128, 128]⟩
/-- The shape of a 128×128 plane. -/
abbrev Plane : Shape := ⟨2, ![128, 128]⟩

/-- One half, as both programs spell it. -/
abbrev half : EReal := Ideal.ofBits .f32 0x3F000000#32

/-! ## The butterfly: four signed sums, halved -/

def sPP (a b c d : EReal) : EReal := (a + b + c + d) * half
def sPM (a b c d : EReal) : EReal := (a + b - c - d) * half
def sMP (a b c d : EReal) : EReal := (a - b + c - d) * half
def sMM (a b c d : EReal) : EReal := (a - b - c + d) * half

/-! ## One block: transform, mask, transform back

`P r s` is the pixel of the block in row `r`, column `s`; `M r s` the mask entry that meets the
sub-band kept in quadrant `(r, s)`. -/

def bLL (P : Fin 2 → Fin 2 → EReal) : EReal := sPP (P 0 0) (P 0 1) (P 1 0) (P 1 1)
def bLH (P : Fin 2 → Fin 2 → EReal) : EReal := sPM (P 0 0) (P 0 1) (P 1 0) (P 1 1)
def bHL (P : Fin 2 → Fin 2 → EReal) : EReal := sMP (P 0 0) (P 0 1) (P 1 0) (P 1 1)
def bHH (P : Fin 2 → Fin 2 → EReal) : EReal := sMM (P 0 0) (P 0 1) (P 1 0) (P 1 1)

/-- The output pixel (0, 0) of the block, -/
def oA (P M : Fin 2 → Fin 2 → EReal) : EReal := sPP (bLL P * M 0 0) (bLH P * M 0 1) (bHL P * M 1 0) (bHH P * M 1 1)
/-- the pixel (0, 1), -/
def oB (P M : Fin 2 → Fin 2 → EReal) : EReal := sPM (bLL P * M 0 0) (bLH P * M 0 1) (bHL P * M 1 0) (bHH P * M 1 1)
/-- the pixel (1, 0), -/
def oC (P M : Fin 2 → Fin 2 → EReal) : EReal := sMP (bLL P * M 0 0) (bLH P * M 0 1) (bHL P * M 1 0) (bHH P * M 1 1)
/-- and the pixel (1, 1). -/
def oD (P M : Fin 2 → Fin 2 → EReal) : EReal := sMM (bLL P * M 0 0) (bLH P * M 0 1) (bHL P * M 1 0) (bHH P * M 1 1)

/-! ## Where the numbers sit -/

/-- Pixel `(r, s)` of block `(i, j)` of an image: its entry `(2i + r, 2j + s)`. -/
def pix (x : Img.Idx → EReal) (i j : Fin 64) (r s : Fin 2) : EReal :=
  x (ix4 (0 : Fin 1) (0 : Fin 1) (⟨2 * i.val + r.val, by omega⟩ : Fin 128) (⟨2 * j.val + s.val, by omega⟩ : Fin 128))

/-- Entry `(i, j)` of quadrant `(r, s)` of a mask: its entry `(64 r + i, 64 s + j)`. -/
def msk (w : Img.Idx → EReal) (i j : Fin 64) (r s : Fin 2) : EReal :=
  w (ix4 (0 : Fin 1) (0 : Fin 1) (⟨64 * r.val + i.val, by omega⟩ : Fin 128) (⟨64 * s.val + j.val, by omega⟩ : Fin 128))

/-- Entry `(i, j)` of quadrant `(r, s)` of a 128×128 plane. -/
def quad (y : Plane.Idx → EReal) (i j : Fin 64) (r s : Fin 2) : EReal :=
  y (ix2 (⟨64 * r.val + i.val, by omega⟩ : Fin 128) (⟨64 * s.val + j.val, by omega⟩ : Fin 128))

/-! ## The result, as one function of the image and the mask -/

/-- Half of a coordinate: the block it lies in. -/
def blockOf (a : Fin 128) : Fin 64 := ⟨a.val / 2, by omega⟩

/-- The masked Haar round trip: the entry at `(0, 0, R, C)` is the output pixel `(R mod 2, C mod 2)` of block
    `(R / 2, C / 2)`. -/
def result (x w : Img.Idx → EReal) : Img.Idx → EReal := fun k =>
  if (k 2).val % 2 = 0 then
    (if (k 3).val % 2 = 0 then oA (pix x (blockOf (k 2)) (blockOf (k 3))) (msk w (blockOf (k 2)) (blockOf (k 3)))
      else oB (pix x (blockOf (k 2)) (blockOf (k 3))) (msk w (blockOf (k 2)) (blockOf (k 3))))
  else
    (if (k 3).val % 2 = 0 then oC (pix x (blockOf (k 2)) (blockOf (k 3))) (msk w (blockOf (k 2)) (blockOf (k 3)))
      else oD (pix x (blockOf (k 2)) (blockOf (k 3))) (msk w (blockOf (k 2)) (blockOf (k 3))))

/-- A function on the image's indices that is the block's output pixel at each of the four positions of every
    block is `result`: every index `(0, 0, R, C)` has `R = 2i + r`, `C = 2j + s` for one block and one position. -/
theorem eq_result (f : Img.Idx → EReal) (x w : Img.Idx → EReal)
    (hA : ∀ (k : Img.Idx) (i j : Fin 64), (k 2).val = 2 * i.val → (k 3).val = 2 * j.val → f k = oA (pix x i j) (msk w i j))
    (hB : ∀ (k : Img.Idx) (i j : Fin 64), (k 2).val = 2 * i.val → (k 3).val = 2 * j.val + 1 → f k = oB (pix x i j) (msk w i j))
    (hC : ∀ (k : Img.Idx) (i j : Fin 64), (k 2).val = 2 * i.val + 1 → (k 3).val = 2 * j.val → f k = oC (pix x i j) (msk w i j))
    (hD : ∀ (k : Img.Idx) (i j : Fin 64), (k 2).val = 2 * i.val + 1 → (k 3).val = 2 * j.val + 1 → f k = oD (pix x i j) (msk w i j)) :
    f = result x w := by
  funext k
  have e2 : (blockOf (k 2)).val = (k 2).val / 2 := rfl
  have e3 : (blockOf (k 3)).val = (k 3).val / 2 := rfl
  unfold result
  by_cases h2 : (k 2).val % 2 = 0 <;> by_cases h3 : (k 3).val % 2 = 0
  · rw [if_pos h2, if_pos h3]; exact hA k _ _ (by omega) (by omega)
  · rw [if_pos h2, if_neg h3]; exact hB k _ _ (by omega) (by omega)
  · rw [if_neg h2, if_pos h3]; exact hC k _ _ (by omega) (by omega)
  · rw [if_neg h2, if_neg h3]; exact hD k _ _ (by omega) (by omega)

end Cert.Haar

end
-- ==== Proof.KernelBody.lean ====
/-
  What the kernel body leaves in its output block, quadrant by quadrant.

  The body loads the four 64×64 quadrants of its image block (already de-interleaved: quadrant (r, s) holds
  pixel (r, s) of every 2×2 block) and of the mask block, forms the four Haar sub-bands, multiplies each by
  the mask quadrant it meets, applies the butterfly again and stores the four results as the four quadrants
  of the output block.  So entry (i, j) of quadrant (r, s) of the output block is output pixel (r, s) of
  block (i, j), computed from the entries (i, j) of the input quadrants: `Haar.oA` … `Haar.oD` of
  `Haar.quad` of the two input blocks.
-/
import proofs.«428757_j74019466379564_3_alg».proof.Proof.Gen.KernelIdeal.Frame
import proofs.«428757_j74019466379564_3_alg».proof.Proof.Haar
import Idealize.ShloMosaic.Lib.Pipeline.Value

noncomputable section

namespace Cert.KernelIdeal.Body

open Cert.KernelIdeal Cert.KernelIdeal.Gen Cert.Haar Idealize.ShloMosaic Idealize.ShloMosaic.ValueIdx

/-! ## The payloads, pointwise

Each value the body stores or carries is a pointwise expression of the loaded quadrants; the shape casts
in it are between equal shapes. -/

theorem pay10_at (v0 v2 v4 v6 : Vec Ideal S64x64 .f32) (p : S64x64.Idx) :
    k0_pay10 (F := Ideal) v0 v2 v4 v6 p = sMM (v0 p) (v2 p) (v4 p) (v6 p) := by
  unfold k0_pay10 k0_pay6 k0_pay7 k0_pay8 k0_pay9
  simp only [shapeCast_self]
  rfl

theorem pay11_at (v34 : Vec Ideal S64x64 .f32) (p : S64x64.Idx) : k0_pay11 (F := Ideal) v34 p = v34 p := by
  unfold k0_pay11
  simp only [shapeCast_self]

theorem pay12_at (v0 v2 v4 v6 v28 : Vec Ideal S64x64 .f32) (p : S64x64.Idx) :
    k0_pay12 (F := Ideal) v0 v2 v4 v6 v28 p = sPP (v0 p) (v2 p) (v4 p) (v6 p) * v28 p := by
  unfold k0_pay12 k0_pay6 k0_pay7 k0_pay8 k0_pay9
  simp only [shapeCast_self]
  rfl

theorem pay13_at (v0 v2 v4 v6 v30 : Vec Ideal S64x64 .f32) (p : S64x64.Idx) :
    k0_pay13 (F := Ideal) v0 v2 v4 v6 v30 p = sPM (v0 p) (v2 p) (v4 p) (v6 p) * v30 p := by
  unfold k0_pay13 k0_pay6 k0_pay7 k0_pay8 k0_pay9
  simp only [shapeCast_self]
  rfl

theorem pay14_at (v0 v2 v4 v6 v32 : Vec Ideal S64x64 .f32) (p : S64x64.Idx) :
    k0_pay14 (F := Ideal) v0 v2 v4 v6 v32 p = sMP (v0 p) (v2 p) (v4 p) (v6 p) * v32 p := by
  unfold k0_pay14 k0_pay6 k0_pay7 k0_pay8 k0_pay9
  simp only [shapeCast_self]
  rfl

theorem pay2_at (v27 v35 v36 v37 v38 : Vec Ideal S64x64 .f32) (p : S64x64.Idx) :
    k0_pay2 (F := Ideal) v27 v35 v36 v37 v38 p = sPP (v36 p) (v37 p) (v38 p) (v27 p * v35 p) := by
  unfold k0_pay2 k0_pay1; rfl
theorem pay3_at (v27 v35 v36 v37 v38 : Vec Ideal S64x64 .f32) (p : S64x64.Idx) :
    k0_pay3 (F := Ideal) v27 v35 v36 v37 v38 p = sPM (v36 p) (v37 p) (v38 p) (v27 p * v35 p) := by
  unfold k0_pay3 k0_pay1; rfl
theorem pay4_at (v27 v35 v36 v37 v38 : Vec Ideal S64x64 .f32) (p : S64x64.Idx) :
    k0_pay4 (F := Ideal) v27 v35 v36 v37 v38 p = sMP (v36 p) (v37 p) (v38 p) (v27 p * v35 p) := by
  unfold k0_pay4 k0_pay1; rfl
theorem pay5_at (v27 v35 v36 v37 v38 : Vec Ideal S64x64 .f32) (p : S64x64.Idx) :
    k0_pay5 (F := Ideal) v27 v35 v36 v37 v38 p = sMM (v36 p) (v37 p) (v38 p) (v27 p * v35 p) := by
  unfold k0_pay5 k0_pay1; rfl

/-! ## The loads: a quadrant's rectangle reads that quadrant -/

theorem ld_0 (y : Vec Ideal S128x128 .f32) (i j : Fin 64) : View.ld y r0_0 (ix2 i j) = quad y i j 0 0 := by
  unfold quad
  show y (r0_0.idx (ix2 i j)) = y _
  refine congrArg y (funext fun a => Fin.ext ?_)
  match a with
  | ⟨0, _⟩ => show 0 + 1 * i.val = 64 * 0 + i.val; omega
  | ⟨1, _⟩ => show 0 + 1 * j.val = 64 * 0 + j.val; omega
theorem ld_1 (y : Vec Ideal S128x128 .f32) (i j : Fin 64) : View.ld y r0_1 (ix2 i j) = quad y i j 0 1 := by
  unfold quad
  show y (r0_1.idx (ix2 i j)) = y _
  refine congrArg y (funext fun a => Fin.ext ?_)
  match a with
  | ⟨0, _⟩ => show 0 + 1 * i.val = 64 * 0 + i.val; omega
  | ⟨1, _⟩ => show 64 + 1 * j.val = 64 * 1 + j.val; omega
theorem ld_2 (y : Vec Ideal S128x128 .f32) (i j : Fin 64) : View.ld y r0_2 (ix2 i j) = quad y i j 1 0 := by
  unfold quad
  show y (r0_2.idx (ix2 i j)) = y _
  refine congrArg y (funext fun a => Fin.ext ?_)
  match a with
  | ⟨0, _⟩ => show 64 + 1 * i.val = 64 * 1 + i.val; omega
  | ⟨1, _⟩ => show 0 + 1 * j.val = 64 * 0 + j.val; omega
theorem ld_3 (y : Vec Ideal S128x128 .f32) (i j : Fin 64) : View.ld y r0_3 (ix2 i j) = quad y i j 1 1 := by
  unfold quad
  show y (r0_3.idx (ix2 i j)) = y _
  refine congrArg y (funext fun a => Fin.ext ?_)
  match a with
  | ⟨0, _⟩ => show 64 + 1 * i.val = 64 * 1 + i.val; omega
  | ⟨1, _⟩ => show 64 + 1 * j.val = 64 * 1 + j.val; omega

/-! ## Which store an index of the block falls under -/

theorem not_mem_r1 (q : S128x128.Idx) (h1 : (q 1).val < 64) : q ∉ r0_1.set := fun h => by
  rw [Rect.mem_set_unit] at h
  have h' : 64 ≤ (q 1).val ∧ (q 1).val < 64 + 64 := h 1
  omega
theorem not_mem_r2 (q : S128x128.Idx) (h0 : (q 0).val < 64) : q ∉ r0_2.set := fun h => by
  rw [Rect.mem_set_unit] at h
  have h' : 64 ≤ (q 0).val ∧ (q 0).val < 64 + 64 := h 0
  omega
theorem not_mem_r2' (q : S128x128.Idx) (h1 : 64 ≤ (q 1).val) : q ∉ r0_2.set := fun h => by
  rw [Rect.mem_set_unit] at h
  have h' : 0 ≤ (q 1).val ∧ (q 1).val < 0 + 64 := h 1
  omega
theorem not_mem_r3 (q : S128x128.Idx) (h : (q 0).val < 64 ∨ (q 1).val < 64) : q ∉ r0_3.set := fun hm => by
  rw [Rect.mem_set_unit] at hm
  have h0 : 64 ≤ (q 0).val ∧ (q 0).val < 64 + 64 := hm 0
  have h1 : 64 ≤ (q 1).val ∧ (q 1).val < 64 + 64 := hm 1
  omega

/-! ## Four stores that tile the block: which payload an index reads

The stores are listed last first.  An index of the top-left quadrant lies under none of the three later
stores, one of the top-right quadrant under none of the two after it, and so on. -/

section Tiling
variable (P3 P2 P1 P0 : Vec Ideal S64x64 .f32)

theorem canon_A (q : S128x128.Idx) (h0 : (q 0).val < 64) (h1 : (q 1).val < 64) (y : S64x64.Idx) (e : q = r0_0.emb y) :
    View.canon ([⟨r0_3, P3⟩, ⟨r0_2, P2⟩, ⟨r0_1, P1⟩, ⟨r0_0, P0⟩] : List (View.Piece (Elt Ideal) S128x128 .f32)) q = P0 y := by
  refine (View.canon_cons_of_not_mem (⟨r0_3, P3⟩ : View.Piece (Elt Ideal) S128x128 .f32) _ (not_mem_r3 q (Or.inl h0))).trans ?_
  refine (View.canon_cons_of_not_mem (⟨r0_2, P2⟩ : View.Piece (Elt Ideal) S128x128 .f32) _ (not_mem_r2 q h0)).trans ?_
  refine (View.canon_cons_of_not_mem (⟨r0_1, P1⟩ : View.Piece (Elt Ideal) S128x128 .f32) _ (not_mem_r1 q h1)).trans ?_
  rw [e]
  exact View.canon_cons_emb r0_0 P0 [] y

theorem canon_B (q : S128x128.Idx) (h0 : (q 0).val < 64) (y : S64x64.Idx) (e : q = r0_1.emb y) :
    View.canon ([⟨r0_3, P3⟩, ⟨r0_2, P2⟩, ⟨r0_1, P1⟩, ⟨r0_0, P0⟩] : List (View.Piece (Elt Ideal) S128x128 .f32)) q = P1 y := by
  refine (View.canon_cons_of_not_mem (⟨r0_3, P3⟩ : View.Piece (Elt Ideal) S128x128 .f32) _ (not_mem_r3 q (Or.inl h0))).trans ?_
  refine (View.canon_cons_of_not_mem (⟨r0_2, P2⟩ : View.Piece (Elt Ideal) S128x128 .f32) _ (not_mem_r2 q h0)).trans ?_
  rw [e]
  exact View.canon_cons_emb r0_1 P1 _ y

theorem canon_C (q : S128x128.Idx) (h1 : (q 1).val < 64) (y : S64x64.Idx) (e : q = r0_2.emb y) :
    View.canon ([⟨r0_3, P3⟩, ⟨r0_2, P2⟩, ⟨r0_1, P1⟩, ⟨r0_0, P0⟩] : List (View.Piece (Elt Ideal) S128x128 .f32)) q = P2 y := by
  refine (View.canon_cons_of_not_mem (⟨r0_3, P3⟩ : View.Piece (Elt Ideal) S128x128 .f32) _ (not_mem_r3 q (Or.inr h1))).trans ?_
  rw [e]
  exact View.canon_cons_emb r0_2 P2 _ y

theorem canon_D (q : S128x128.Idx) (y : S64x64.Idx) (e : q = r0_3.emb y) :
    View.canon ([⟨r0_3, P3⟩, ⟨r0_2, P2⟩, ⟨r0_1, P1⟩, ⟨r0_0, P0⟩] : List (View.Piece (Elt Ideal) S128x128 .f32)) q = P3 y := by
  rw [e]
  exact View.canon_cons_emb r0_3 P3 _ y

end Tiling

/-! ## The output block, quadrant by quadrant -/

variable (x0 x1 : Vec Ideal S128x128 .f32)

/-- Quadrant (0, 0). -/
theorem out_A (i j : Fin 64) : quad (out0_2 x0 x1) i j 0 0 = oA (quad x0 i j) (quad x1 i j) := by
  have hi := i.isLt; have hj := j.isLt
  show out0_2 x0 x1 (ix2 (⟨64 * 0 + i.val, by omega⟩ : Fin 128) (⟨64 * 0 + j.val, by omega⟩ : Fin 128)) = _
  unfold out0_2
  rw [canon_A _ _ _ _ _ (by show 64 * 0 + i.val < 64; omega) (by show 64 * 0 + j.val < 64; omega) (ix2 i j)
    (funext fun a => Fin.ext (match a with
      | ⟨0, _⟩ => by show 64 * 0 + i.val = 0 + 1 * i.val; omega
      | ⟨1, _⟩ => by show 64 * 0 + j.val = 0 + 1 * j.val; omega))]
  rw [pay2_at, pay10_at, pay11_at, pay12_at, pay13_at, pay14_at]
  rw [ld_0 x0 i j, ld_1 x0 i j, ld_2 x0 i j, ld_3 x0 i j, ld_0 x1 i j, ld_1 x1 i j, ld_2 x1 i j, ld_3 x1 i j]
  rfl

/-- Quadrant (0, 1). -/
theorem out_B (i j : Fin 64) : quad (out0_2 x0 x1) i j 0 1 = oB (quad x0 i j) (quad x1 i j) := by
  have hi := i.isLt; have hj := j.isLt
  show out0_2 x0 x1 (ix2 (⟨64 * 0 + i.val, by omega⟩ : Fin 128) (⟨64 * 1 + j.val, by omega⟩ : Fin 128)) = _
  unfold out0_2
  rw [canon_B _ _ _ _ _ (by show 64 * 0 + i.val < 64; omega) (ix2 i j)
    (funext fun a => Fin.ext (match a with
      | ⟨0, _⟩ => by show 64 * 0 + i.val = 0 + 1 * i.val; omega
      | ⟨1, _⟩ => by show 64 * 1 + j.val = 64 + 1 * j.val; omega))]
  rw [pay3_at, pay10_at, pay11_at, pay12_at, pay13_at, pay14_at]
  rw [ld_0 x0 i j, ld_1 x0 i j, ld_2 x0 i j, ld_3 x0 i j, ld_0 x1 i j, ld_1 x1 i j, ld_2 x1 i j, ld_3 x1 i j]
  rfl

/-- Quadrant (1, 0). -/
theorem out_C (i j : Fin 64) : quad (out0_2 x0 x1) i j 1 0 = oC (quad x0 i j) (quad x1 i j) := by
  have hi := i.isLt; have hj := j.isLt
  show out0_2 x0 x1 (ix2 (⟨64 * 1 + i.val, by omega⟩ : Fin 128) (⟨64 * 0 + j.val, by omega⟩ : Fin 128)) = _
  unfold out0_2
  rw [canon_C _ _ _ _ _ (by show 64 * 0 + j.val < 64; omega) (ix2 i j)
    (funext fun a => Fin.ext (match a with
      | ⟨0, _⟩ => by show 64 * 1 + i.val = 64 + 1 * i.val; omega
      | ⟨1, _⟩ => by show 64 * 0 + j.val = 0 + 1 * j.val; omega))]
  rw [pay4_at, pay10_at, pay11_at, pay12_at, pay13_at, pay14_at]
  rw [ld_0 x0 i j, ld_1 x0 i j, ld_2 x0 i j, ld_3 x0 i j, ld_0 x1 i j, ld_1 x1 i j, ld_2 x1 i j, ld_3 x1 i j]
  rfl

/-- Quadrant (1, 1). -/
theorem out_D (i j : Fin 64) : quad (out0_2 x0 x1) i j 1 1 = oD (quad x0 i j) (quad x1 i j) := by
  have hi := i.isLt; have hj := j.isLt
  show out0_2 x0 x1 (ix2 (⟨64 * 1 + i.val, by omega⟩ : Fin 128) (⟨64 * 1 + j.val, by omega⟩ : Fin 128)) = _
  unfold out0_2
  rw [canon_D _ _ _ _ _ (ix2 i j)
    (funext fun a => Fin.ext (match a with
      | ⟨0, _⟩ => by show 64 * 1 + i.val = 64 + 1 * i.val; omega
      | ⟨1, _⟩ => by show 64 * 1 + j.val = 64 + 1 * j.val; omega))]
  rw [pay5_at, pay10_at, pay11_at, pay12_at, pay13_at, pay14_at]
  rw [ld_0 x0 i j, ld_1 x0 i j, ld_2 x0 i j, ld_3 x0 i j, ld_0 x1 i j, ld_1 x1 i j, ld_2 x1 i j, ld_3 x1 i j]
  rfl

end Cert.KernelIdeal.Body

end
-- ==== Proof.HaarLayout.lean ====
/-
  The two rearrangements the kernel's wrapper makes around the pallas_call, read at an index.

  Before the call the image is DE-INTERLEAVED: reshaped to 64×2×64×2 (entry (i, r, j, s) is pixel (r, s) of
  block (i, j)), its axes swapped in pairs to 2×64×2×64 (entry (r, i, s, j)), and reshaped to a plane: pixel
  (r, s) of block (i, j) lands at (64 r + i, 64 s + j), entry (i, j) of quadrant (r, s).  After the call the
  result is RE-INTERLEAVED by the inverse chain.  The mask is only reshaped to a plane.
  Each lemma is stated for any evidence of the shape relations the operations carry.
-/
import Idealize.ShloMosaic.Lib.Pipeline.Value
import proofs.«428757_j74019466379564_3_alg».proof.Proof.Haar

noncomputable section

namespace Cert.Haar

open Idealize.ShloMosaic Idealize.ShloMosaic.ValueIdx

/-- Blocks first: (block row, row in block, block column, column in block). -/
abbrev Blocks : Shape := ⟨4, ![64, 2, 64, 2]⟩
/-- Quadrants first: (row in block, block row, column in block, block column). -/
abbrev Quads : Shape := ⟨4, ![2, 64, 2, 64]⟩

/-- A plane's entry (R, C) of the reshaped image or mask is the entry (0, 0, R, C). -/
theorem plane_apply (x : Img.Idx → EReal) (h : Img.ShapeCasts Plane) (R C : Fin 128) :
    shapeCast Plane x h (ix2 R C) = x (ix4 (0 : Fin 1) (0 : Fin 1) R C) := by
  refine shapeCast_apply x h (ix2 R C) (ix4 (0 : Fin 1) (0 : Fin 1) R C) ?_
  rewrite [Shape.rowMajor_val_four, Shape.rowMajor_val_two]
  show ((0 * 1 + 0) * 128 + R.val) * 128 + C.val = R.val * 128 + C.val
  omega

/-- The mask's plane in quadrants. -/
theorem plane_quad (w : Img.Idx → EReal) (h : Img.ShapeCasts Plane) (i j : Fin 64) (r s : Fin 2) :
    quad (shapeCast Plane w h) i j r s = msk w i j r s := by
  unfold quad msk
  exact plane_apply w h _ _

/-- DE-INTERLEAVE: entry (i, j) of quadrant (r, s) of the rearranged image is pixel (r, s) of block (i, j). -/
theorem deinterleave_quad (x : Img.Idx → EReal) (h1 : Img.ShapeCasts Plane) (h2 : Plane.ShapeCasts Blocks)
    (h3 : Blocks.Transposes [1, 0, 3, 2] Quads) (h4 : Quads.ShapeCasts Plane) (i j : Fin 64) (r s : Fin 2) :
    quad (shapeCast Plane (transpose Quads [1, 0, 3, 2] (shapeCast Blocks (shapeCast Plane x h1) h2) h3) h4) i j r s
      = pix x i j r s := by
  have hi := i.isLt; have hj := j.isLt; have hr := r.isLt; have hs := s.isLt
  unfold quad pix
  refine (shapeCast_apply _ h4 _ (ix4 r i s j) ?_).trans ?_
  · rewrite [Shape.rowMajor_val_four, Shape.rowMajor_val_two]
    show ((r.val * 64 + i.val) * 2 + s.val) * 64 + j.val = (64 * r.val + i.val) * 128 + (64 * s.val + j.val)
    omega
  refine (transpose_apply _ _ h3 (ix4 r i s j) (ix4 i r j s) (fun b => match b with
    | ⟨0, _⟩ => rfl | ⟨1, _⟩ => rfl | ⟨2, _⟩ => rfl | ⟨3, _⟩ => rfl)).trans ?_
  refine (shapeCast_apply _ h2 (ix4 i r j s)
    (ix2 (⟨2 * i.val + r.val, by omega⟩ : Fin 128) (⟨2 * j.val + s.val, by omega⟩ : Fin 128)) ?_).trans ?_
  · rewrite [Shape.rowMajor_val_two, Shape.rowMajor_val_four]
    show (2 * i.val + r.val) * 128 + (2 * j.val + s.val) = ((i.val * 2 + r.val) * 64 + j.val) * 2 + s.val
    omega
  exact plane_apply x h1 _ _

/-- RE-INTERLEAVE: the entry (0, 0, 2i + r, 2j + s) of the rearranged result is entry (i, j) of quadrant (r, s)
    of the plane the call left. -/
theorem reinterleave_apply (y : Plane.Idx → EReal) (h5 : Plane.ShapeCasts Quads) (h6 : Quads.Transposes [1, 0, 3, 2] Blocks)
    (h7 : Blocks.ShapeCasts Plane) (h8 : Plane.BroadcastsInDim Img (![2, 3] : Fin 2 → Fin Img.rank))
    (k : Img.Idx) (i j : Fin 64) (r s : Fin 2) (e2 : (k 2).val = 2 * i.val + r.val) (e3 : (k 3).val = 2 * j.val + s.val) :
    broadcastInDim Img ![2, 3] h8 (shapeCast Plane (transpose Blocks [1, 0, 3, 2] (shapeCast Quads y h5) h6) h7) k
      = quad y i j r s := by
  have hi := i.isLt; have hj := j.isLt; have hr := r.isLt; have hs := s.isLt
  unfold quad
  refine (broadcastInDim_apply _ h8 _ k (ix2 (⟨(k 2).val, (k 2).isLt⟩ : Fin 128) (⟨(k 3).val, (k 3).isLt⟩ : Fin 128))
    (fun a => match a with
      | ⟨0, _⟩ => by show (k 2).val = if (128 : Nat) = 1 then 0 else (k 2).val; rw [if_neg (by decide)]
      | ⟨1, _⟩ => by show (k 3).val = if (128 : Nat) = 1 then 0 else (k 3).val; rw [if_neg (by decide)])).trans ?_
  refine (shapeCast_apply _ h7 _ (ix4 i r j s) ?_).trans ?_
  · rewrite [Shape.rowMajor_val_four, Shape.rowMajor_val_two]
    show ((i.val * 2 + r.val) * 64 + j.val) * 2 + s.val = (k 2).val * 128 + (k 3).val
    omega
  refine (transpose_apply _ _ h6 (ix4 i r j s) (ix4 r i s j) (fun b => match b with
    | ⟨0, _⟩ => rfl | ⟨1, _⟩ => rfl | ⟨2, _⟩ => rfl | ⟨3, _⟩ => rfl)).trans ?_
  refine shapeCast_apply _ h5 (ix4 r i s j)
    (ix2 (⟨64 * r.val + i.val, by omega⟩ : Fin 128) (⟨64 * s.val + j.val, by omega⟩ : Fin 128)) ?_
  rewrite [Shape.rowMajor_val_two, Shape.rowMajor_val_four]
  show (64 * r.val + i.val) * 128 + (64 * s.val + j.val) = ((r.val * 64 + i.val) * 2 + s.val) * 64 + j.val
  omega

end Cert.Haar

end
-- ==== Proof.KernelValue.lean ====
/-
  The kernel's run, read as a value: its result array is the masked Haar round trip of its arguments.

  The region finds the image de-interleaved (the wrapper's reshape / transpose / reshape) and the mask as
  a plane; its one grid point covers the whole 128×128 block, so the array it leaves is what the body leaves
  in the block (`Body.out_A` … `out_D`, quadrant by quadrant); the wrapper's inverse rearrangement then puts
  entry (i, j) of quadrant (r, s) at (0, 0, 2i + r, 2j + s), which is where `Haar.result` has output pixel
  (r, s) of block (i, j).
-/
import proofs.«428757_j74019466379564_3_alg».proof.Proof.Gen.KernelIdeal.Frame
import proofs.«428757_j74019466379564_3_alg».proof.Proof.KernelBody
import proofs.«428757_j74019466379564_3_alg».proof.Proof.HaarLayout

noncomputable section

namespace Cert.KernelIdeal.KValue

open Cert.KernelIdeal Cert.KernelIdeal.Gen Cert.Haar Idealize.ShloMosaic Idealize.ShloMosaic.TcCoe Idealize.ShloMosaic.ValueIdx
open Idealize.SL.Sem

variable (m : (ℓ : Loc nD τ sig) → Buf (Elt Ideal) ℓ) (ρ : Dev nD → PrngReg)

/-! ## What the region finds -/

/-- The image the region stages: the argument de-interleaved by the three host operations before the call. -/
theorem found_image (c : Dev nD) :
    (V m c main_call0_v4 : S128x128.Idx → EReal)
      = shapeCast S128x128 (transpose S2x64x2x64 [1, 0, 3, 2]
          (shapeCast S64x2x64x2 (shapeCast S128x128 (m ((c : Thread nD τ).loc main_arg0)) shapeCasts_S1x1x128x128_S128x128)
            shapeCasts_S128x128_S64x2x64x2) transposes_S64x2x64x2_S2x64x2x64_1_0_3_2) shapeCasts_S2x64x2x64_S128x128 := by
  show StableHlo.after hostOps0 (fun b => m (c, b)) (Proc.devRef .tc main_call0_v4) = _
  after_results
  rfl

/-- The mask the region stages: the argument as a plane. -/
theorem found_mask (c : Dev nD) :
    (V m c main_call0_v1 : S128x128.Idx → EReal)
      = shapeCast S128x128 (m ((c : Thread nD τ).loc main_arg1)) shapeCasts_S1x1x128x128_S128x128 := by
  show StableHlo.after hostOps0 (fun b => m (c, b)) (Proc.devRef .tc main_call0_v1) = _
  after_results
  rfl

/-- Entry (i, j) of quadrant (r, s) of the staged image is pixel (r, s) of block (i, j) of the argument. -/
theorem found_image_quad (c : Dev nD) (i j : Fin 64) :
    quad (V m c main_call0_v4) i j = pix (m ((c : Thread nD τ).loc main_arg0)) i j := by
  funext r s
  rw [found_image]
  exact deinterleave_quad _ _ _ _ _ i j r s

/-- Entry (i, j) of quadrant (r, s) of the staged mask is that entry of the argument's quadrant. -/
theorem found_mask_quad (c : Dev nD) (i j : Fin 64) :
    quad (V m c main_call0_v1) i j = msk (m ((c : Thread nD τ).loc main_arg1)) i j := by
  funext r s
  rw [found_mask]
  exact plane_quad _ _ i j r s

/-! ## What the region leaves -/

/-- Every window's one block starts at the array's origin. -/
theorem origin : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The block the one grid point writes back is the body's result on the two staged arrays, whole. -/
theorem flushed_eq (c : Dev nD) (t : Fin cfg0.N) :
    (dats m 0 c).flushed 2 t
      = ((cfg0.win 2).blk t).view.read (Elt Ideal) (out0_2 (V m c main_call0_v4) (V m c main_call0_v1)) := by
  show (cfg0.win 2).cut (grid0.coords t) ((dats m 0 c).after 2 t) = _
  rw [after0_2]
  obtain ⟨a0, a1, b0, b1, c0, c1⟩ := origin t
  have hx0 : (iblk m c 0 t : Vec Ideal S128x128 .f32) = V m c main_call0_v4 := by
    funext y
    show V m c main_call0_v4 (((cfg0.win 0).blk t).view.emb y) = V m c main_call0_v4 y
    refine congrArg _ (funext fun a => Fin.ext ?_)
    match a with
    | ⟨0, _⟩ => show win0_0.index t (0 : Fin 2) * 128 + 1 * (y 0).val = (y 0).val; omega
    | ⟨1, _⟩ => show win0_0.index t (1 : Fin 2) * 128 + 1 * (y 1).val = (y 1).val; omega
  have hx1 : (iblk m c 1 t : Vec Ideal S128x128 .f32) = V m c main_call0_v1 := by
    funext y
    show V m c main_call0_v1 (((cfg0.win 1).blk t).view.emb y) = V m c main_call0_v1 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  funext y
  show out0_2 (iblk m c 0 t) (iblk m c 1 t) y
    = out0_2 (V m c main_call0_v4) (V m c main_call0_v1) (((cfg0.win 2).blk t).view.emb y)
  rw [hx0, hx1]
  refine congrArg _ (funext fun a => Fin.ext ?_)
  match a with
  | ⟨0, _⟩ => show (y 0).val = win0_2.index t (0 : Fin 2) * 128 + 1 * (y 0).val; omega
  | ⟨1, _⟩ => show (y 1).val = win0_2.index t (1 : Fin 2) * 128 + 1 * (y 1).val; omega

/-- An index of the output array is in the point's block iff each coordinate is in the block's range. -/
theorem mem_blk (t : Fin cfg0.N) (i : S128x128.Idx) :
    i ∈ ((cfg0.win 2).blk t).view.set ↔ ∀ a : Fin 2, win0_2.index t a * S128x128.size a ≤ (i a).val
      ∧ (i a).val < win0_2.index t a * S128x128.size a + S128x128.size a := by
  show i ∈ ((View.whole main_call0_v5).slice (win0_2.rect t)).set ↔ _
  rw [View.set_slice_whole, Rect.mem_set_unit]
  exact Iff.rfl

/-- The output array after the region: the body's result on the two staged arrays. -/
theorem left (c : Dev nD) :
    (dats m 0 c).arrAt 2 cfg0.N = out0_2 (V m c main_call0_v4) (V m c main_call0_v1) :=
  (dats m 0 c).arrAt_eq_of_cover 2 _ (fun t _ => flushed_eq m c t) (fun i => by
    refine ⟨t0_0, flush0_2 t0_0, ?_⟩
    rw [mem_blk]
    obtain ⟨a0, a1, b0, b1, c0, c1⟩ := origin t0_0
    have h0 : (i 0).val < 128 := (i 0).isLt
    have h1 : (i 1).val < 128 := (i 1).isLt
    intro a
    match a with
    | ⟨0, _⟩ => show win0_2.index t0_0 (0 : Fin 2) * 128 ≤ (i 0).val ∧ (i 0).val < win0_2.index t0_0 (0 : Fin 2) * 128 + 128; omega
    | ⟨1, _⟩ => show win0_2.index t0_0 (1 : Fin 2) * 128 ≤ (i 1).val ∧ (i 1).val < win0_2.index t0_0 (1 : Fin 2) * 128 + 128; omega)

/-! ## The result: the host operations after the region -/

/-- @main's result is the array the region left, re-interleaved by the four host operations after the call. -/
theorem tail_eq (c : Dev nD) :
    Pipeline.afterTail₀ cfgs (dats m) 0 (V0 m) [hostOps1] c main_v0
      = broadcastInDim S1x1x128x128 ![2, 3] bcast_S128x128_S1x1x128x128_2_3
          (shapeCast S128x128 (transpose S64x2x64x2 [1, 0, 3, 2]
            (shapeCast S2x64x2x64 ((dats m 0 c).arrAt 2 cfg0.N) shapeCasts_S128x128_S2x64x2x64)
            transposes_S2x64x2x64_S64x2x64x2_1_0_3_2) shapeCasts_S64x2x64x2_S128x128) := by
  unfold Pipeline.afterTail₀
  show StableHlo.after hostOps1 _ (Proc.devRef .tc main_v0) = _
  after_results
  rw [Pipeline.withArrays_arr spec0 launch0.win.arr_inj c _ _ 2]
  rfl

/-- The kernel's result is the masked Haar round trip of its two arguments. -/
theorem result_eq (c : Dev nD) :
    Pipeline.afterTail₀ cfgs (dats m) 0 (V0 m) [hostOps1] c main_v0
      = result (m ((c : Thread nD τ).loc main_arg0)) (m ((c : Thread nD τ).loc main_arg1)) := by
  rw [tail_eq, left]
  refine eq_result _ _ _ ?_ ?_ ?_ ?_
  · intro k i j e2 e3
    rw [reinterleave_apply _ _ _ _ _ k i j 0 0 (by show (k 2).val = 2 * i.val + 0; omega) (by show (k 3).val = 2 * j.val + 0; omega),
      Body.out_A, found_image_quad, found_mask_quad]
  · intro k i j e2 e3
    rw [reinterleave_apply _ _ _ _ _ k i j 0 1 (by show (k 2).val = 2 * i.val + 0; omega) (by show (k 3).val = 2 * j.val + 1; omega),
      Body.out_B, found_image_quad, found_mask_quad]
  · intro k i j e2 e3
    rw [reinterleave_apply _ _ _ _ _ k i j 1 0 (by show (k 2).val = 2 * i.val + 1; omega) (by show (k 3).val = 2 * j.val + 0; omega),
      Body.out_C, found_image_quad, found_mask_quad]
  · intro k i j e2 e3
    rw [reinterleave_apply _ _ _ _ _ k i j 1 1 (by show (k 2).val = 2 * i.val + 1; omega) (by show (k 3).val = 2 * j.val + 1; omega),
      Body.out_D, found_image_quad, found_mask_quad]

/-! ## The run -/

/-- Every weakly fair execution of the idealized kernel terminates with its result at the masked Haar round trip of
    its arguments, and the arguments unchanged. -/
theorem run : θ_run defs (onTc (τ := τ) (main (F := Ideal))) ⟨m, fun _ => 0, ρ⟩ fun r => ∀ c : Dev nD,
      r.2.mem ((c.tc : Thread nD τ).loc main_v0)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.RefStages.lean ====
/-
  The reference program read stage by stage, at an index.

  The reference reshapes the image to 64×2×64×2 — entry (i, r, j, s) is pixel (r, s) of the 2×2 block
  (i, j) —, takes the four unit-stride slices r, s ∈ {0, 1} (the four pixels of every block, as four 64×64
  arrays), forms the four Haar sub-bands, lays them side by side as the quadrants of one 128×128 mosaic,
  multiplies the mosaic by the mask, cuts the product back into its four quadrants, applies the butterfly
  again, and interleaves the four 64×64 results as the pixels of the output blocks (two joins along new unit
  axes, then a reshape back to 128×128).  Each lemma below reads one of these arrays at an index, in terms of
  the block functions of `Haar.lean`; the last one says the whole program is `Haar.result`.
-/
import proofs.«428757_j74019466379564_3_alg».proof.Proof.RefRead
import proofs.«428757_j74019466379564_3_alg».proof.Proof.Haar

noncomputable section

namespace Cert.ReferenceIdeal.RefValue

open Cert.ReferenceIdeal Cert.ReferenceIdeal.Gen Cert.ReferenceIdeal.ReadP Cert.Haar Idealize.ShloMosaic Idealize.ShloMosaic.ValueIdx

variable (x w : (⟨S1x1x128x128, .f32⟩ : BufTy).Contents (Elt Ideal))

/-! ## The image as blocks of pixels -/

/-- The image as a plane: entry (R, C) of the reshaped image is its entry (0, 0, R, C). -/
theorem plane_at (q : S128x128.Idx) :
    val_main_v0 (F := Ideal) x q = x (ix4 (0 : Fin 1) (0 : Fin 1) (⟨(q 0).val, (q 0).isLt⟩ : Fin 128) (⟨(q 1).val, (q 1).isLt⟩ : Fin 128)) := by
  rw [val_main_v0_apply]
  refine congrArg x (funext fun a => Fin.ext ?_)
  have h0 : (q 0).val < 128 := (q 0).isLt
  have h1 : (q 1).val < 128 := (q 1).isLt
  match a with
  | ⟨0, _⟩ => rfl
  | ⟨1, _⟩ => rfl
  | ⟨2, _⟩ => show ((q 0).val * 128 + (q 1).val) / 128 % 128 = (q 0).val; omega
  | ⟨3, _⟩ => show ((q 0).val * 128 + (q 1).val) % 128 = (q 1).val; omega

/-- The image cut into 2×2 blocks: entry (i, r, j, s) of the 64×2×64×2 array is pixel (r, s) of block (i, j),
    since row 2i + r of a 128-wide plane, column 2j + s, sits at row-major position ((2i + r)·64 + j)·2 + s. -/
theorem blocks_at (q : S64x2x64x2.Idx) (i j : Fin 64) (r s : Fin 2)
    (h0 : (q 0).val = i.val) (h1 : (q 1).val = r.val) (h2 : (q 2).val = j.val) (h3 : (q 3).val = s.val) :
    val_main_v1 (F := Ideal) x q = pix x i j r s := by
  rw [val_main_v1_apply, plane_at]
  unfold pix
  refine congrArg x (funext fun a => Fin.ext ?_)
  have hi := i.isLt; have hj := j.isLt; have hr := r.isLt; have hs := s.isLt
  match a with
  | ⟨0, _⟩ => rfl
  | ⟨1, _⟩ => rfl
  | ⟨2, _⟩ => show ((((q 0).val * 2 + (q 1).val) * 64 + (q 2).val) * 2 + (q 3).val) / 128 = 2 * i.val + r.val; omega
  | ⟨3, _⟩ => show ((((q 0).val * 2 + (q 1).val) * 64 + (q 2).val) * 2 + (q 3).val) % 128 = 2 * j.val + s.val; omega

/-- The slice r = 0, s = 0, squeezed to 64×64: the top-left pixel of every block. -/
theorem v3_at (i j : Fin 64) : val_main_v3 (F := Ideal) x (ix2 i j) = pix x i j 0 0 := by
  rw [val_main_v3_apply, val_main_v2_apply]
  have hi := i.isLt; have hj := j.isLt
  exact blocks_at x _ i j 0 0 (by show (i.val * 64 + j.val) / 64 = i.val; omega) rfl
    (by show (i.val * 64 + j.val) / 1 % 64 = j.val; omega) rfl

/-- The slice r = 0, s = 1: the top-right pixel. -/
theorem v5_at (i j : Fin 64) : val_main_v5 (F := Ideal) x (ix2 i j) = pix x i j 0 1 := by
  rw [val_main_v5_apply, val_main_v4_apply]
  have hi := i.isLt; have hj := j.isLt
  exact blocks_at x _ i j 0 1 (by show (i.val * 64 + j.val) / 64 = i.val; omega) rfl
    (by show (i.val * 64 + j.val) / 1 % 64 = j.val; omega) rfl

/-- The slice r = 1, s = 0: the bottom-left pixel. -/
theorem v7_at (i j : Fin 64) : val_main_v7 (F := Ideal) x (ix2 i j) = pix x i j 1 0 := by
  rw [val_main_v7_apply, val_main_v6_apply]
  have hi := i.isLt; have hj := j.isLt
  exact blocks_at x _ i j 1 0 (by show (i.val * 64 + j.val) / 64 = i.val; omega) rfl
    (by show (i.val * 64 + j.val) / 1 % 64 = j.val; omega) rfl

/-- The slice r = 1, s = 1: the bottom-right pixel. -/
theorem v9_at (i j : Fin 64) : val_main_v9 (F := Ideal) x (ix2 i j) = pix x i j 1 1 := by
  rw [val_main_v9_apply, val_main_v8_apply]
  have hi := i.isLt; have hj := j.isLt
  exact blocks_at x _ i j 1 1 (by show (i.val * 64 + j.val) / 64 = i.val; omega) rfl
    (by show (i.val * 64 + j.val) / 1 % 64 = j.val; omega) rfl

/-! ## The four sub-bands -/

theorem v14_at (i j : Fin 64) : val_main_v14 (F := Ideal) x (ix2 i j) = bLL (pix x i j) := by
  rw [val_main_v14_apply, val_main_v12_apply, val_main_v11_apply, val_main_v10_apply, val_main_v13_apply,
    val_main_cst_apply, v3_at, v5_at, v7_at, v9_at]
  rfl

theorem v19_at (i j : Fin 64) : val_main_v19 (F := Ideal) x (ix2 i j) = bLH (pix x i j) := by
  rw [val_main_v19_apply, val_main_v17_apply, val_main_v16_apply, val_main_v15_apply, val_main_v18_apply,
    val_main_cst_0_apply, v3_at, v5_at, v7_at, v9_at]
  rfl

theorem v24_at (i j : Fin 64) : val_main_v24 (F := Ideal) x (ix2 i j) = bHL (pix x i j) := by
  rw [val_main_v24_apply, val_main_v22_apply, val_main_v21_apply, val_main_v20_apply, val_main_v23_apply,
    val_main_cst_1_apply, v3_at, v5_at, v7_at, v9_at]
  rfl

theorem v29_at (i j : Fin 64) : val_main_v29 (F := Ideal) x (ix2 i j) = bHH (pix x i j) := by
  rw [val_main_v29_apply, val_main_v27_apply, val_main_v26_apply, val_main_v25_apply, val_main_v28_apply,
    val_main_cst_2_apply, v3_at, v5_at, v7_at, v9_at]
  rfl

/-! ## The mosaic: the four sub-bands as the quadrants of one plane

Two joins along the columns (LL | LH and HL | HH), then one along the rows.  An entry of the mosaic in the
top half comes from the first row of quadrants, at the same index; one in the bottom half from the second,
64 rows up; and likewise for the columns. -/

theorem mosaic_LL (q : S128x128.Idx) (i j : Fin 64) (h0 : (q 0).val = i.val) (h1 : (q 1).val = j.val) :
    val_main_v30 (F := Ideal) x q = bLL (pix x i j) := by
  unfold val_main_v30
  refine (concatenate_pair_apply_left _ _ _ concatenates_S64x128_S64x128_S128x128_d0 q rfl
    (ix2 i (⟨(q 1).val, (q 1).isLt⟩ : Fin 128)) (fun b => match b with | ⟨0, _⟩ => h0.symm | ⟨1, _⟩ => rfl)).trans ?_
  unfold val_main_call0_v0
  refine (concatenate_pair_apply_left _ _ _ concatenates_S64x64_S64x64_S64x128_d1 _ rfl
    (ix2 i j) (fun b => match b with | ⟨0, _⟩ => rfl | ⟨1, _⟩ => h1.symm)).trans ?_
  exact v14_at x i j

theorem mosaic_LH (q : S128x128.Idx) (i j : Fin 64) (h0 : (q 0).val = i.val) (h1 : (q 1).val = 64 + j.val) :
    val_main_v30 (F := Ideal) x q = bLH (pix x i j) := by
  unfold val_main_v30
  refine (concatenate_pair_apply_left _ _ _ concatenates_S64x128_S64x128_S128x128_d0 q rfl
    (ix2 i (⟨(q 1).val, (q 1).isLt⟩ : Fin 128)) (fun b => match b with | ⟨0, _⟩ => h0.symm | ⟨1, _⟩ => rfl)).trans ?_
  unfold val_main_call0_v0
  refine (concatenate_pair_apply_right _ _ _ concatenates_S64x64_S64x64_S64x128_d1 _ rfl rfl
    (ix2 i j) (fun b => match b with | ⟨0, _⟩ => fun _ => rfl | ⟨1, _⟩ => fun hne => absurd rfl hne)
    (by show j.val + 64 = (q 1).val; omega)).trans ?_
  exact v19_at x i j

theorem mosaic_HL (q : S128x128.Idx) (i j : Fin 64) (h0 : (q 0).val = 64 + i.val) (h1 : (q 1).val = j.val) :
    val_main_v30 (F := Ideal) x q = bHL (pix x i j) := by
  unfold val_main_v30
  refine (concatenate_pair_apply_right _ _ _ concatenates_S64x128_S64x128_S128x128_d0 q rfl rfl
    (ix2 i (⟨(q 1).val, (q 1).isLt⟩ : Fin 128)) (fun b => match b with | ⟨0, _⟩ => fun hne => absurd rfl hne | ⟨1, _⟩ => fun _ => rfl)
    (by show i.val + 64 = (q 0).val; omega)).trans ?_
  unfold val_main_call0_v1
  refine (concatenate_pair_apply_left _ _ _ concatenates_S64x64_S64x64_S64x128_d1 _ rfl
    (ix2 i j) (fun b => match b with | ⟨0, _⟩ => rfl | ⟨1, _⟩ => h1.symm)).trans ?_
  exact v24_at x i j

theorem mosaic_HH (q : S128x128.Idx) (i j : Fin 64) (h0 : (q 0).val = 64 + i.val) (h1 : (q 1).val = 64 + j.val) :
    val_main_v30 (F := Ideal) x q = bHH (pix x i j) := by
  unfold val_main_v30
  refine (concatenate_pair_apply_right _ _ _ concatenates_S64x128_S64x128_S128x128_d0 q rfl rfl
    (ix2 i (⟨(q 1).val, (q 1).isLt⟩ : Fin 128)) (fun b => match b with | ⟨0, _⟩ => fun hne => absurd rfl hne | ⟨1, _⟩ => fun _ => rfl)
    (by show i.val + 64 = (q 0).val; omega)).trans ?_
  unfold val_main_call0_v1
  refine (concatenate_pair_apply_right _ _ _ concatenates_S64x64_S64x64_S64x128_d1 _ rfl rfl
    (ix2 i j) (fun b => match b with | ⟨0, _⟩ => fun _ => rfl | ⟨1, _⟩ => fun hne => absurd rfl hne)
    (by show j.val + 64 = (q 1).val; omega)).trans ?_
  exact v29_at x i j

/-! ## The masked sub-bands: the quadrants of mosaic × mask -/

/-- The mask as a plane, at the entry (64 r + i, 64 s + j) of quadrant (r, s). -/
theorem mask_at (q : S128x128.Idx) (i j : Fin 64) (r s : Fin 2) (h0 : (q 0).val = 64 * r.val + i.val) (h1 : (q 1).val = 64 * s.val + j.val) :
    val_main_v31 (F := Ideal) w q = msk w i j r s := by
  rw [val_main_v31_apply]
  unfold msk
  refine congrArg w (funext fun a => Fin.ext ?_)
  have hi := i.isLt; have hj := j.isLt; have hr := r.isLt; have hs := s.isLt
  match a with
  | ⟨0, _⟩ => rfl
  | ⟨1, _⟩ => rfl
  | ⟨2, _⟩ => show ((q 0).val * 128 + (q 1).val) / 128 % 128 = 64 * r.val + i.val; omega
  | ⟨3, _⟩ => show ((q 0).val * 128 + (q 1).val) % 128 = 64 * s.val + j.val; omega

theorem v33_at (i j : Fin 64) : val_main_v33 (F := Ideal) x w (ix2 i j) = bLL (pix x i j) * msk w i j 0 0 := by
  rw [val_main_v33_apply, val_main_v32_apply, mosaic_LL x _ i j rfl rfl,
    mask_at w _ i j 0 0 (by show i.val = 64 * 0 + i.val; omega) (by show j.val = 64 * 0 + j.val; omega)]
  rfl

theorem v34_at (i j : Fin 64) : val_main_v34 (F := Ideal) x w (ix2 i j) = bLH (pix x i j) * msk w i j 0 1 := by
  rw [val_main_v34_apply, val_main_v32_apply, mosaic_LH x _ i j rfl rfl,
    mask_at w _ i j 0 1 (by show i.val = 64 * 0 + i.val; omega) (by show 64 + j.val = 64 * 1 + j.val; omega)]
  rfl

theorem v35_at (i j : Fin 64) : val_main_v35 (F := Ideal) x w (ix2 i j) = bHL (pix x i j) * msk w i j 1 0 := by
  rw [val_main_v35_apply, val_main_v32_apply, mosaic_HL x _ i j rfl rfl,
    mask_at w _ i j 1 0 (by show 64 + i.val = 64 * 1 + i.val; omega) (by show j.val = 64 * 0 + j.val; omega)]
  rfl

theorem v36_at (i j : Fin 64) : val_main_v36 (F := Ideal) x w (ix2 i j) = bHH (pix x i j) * msk w i j 1 1 := by
  rw [val_main_v36_apply, val_main_v32_apply, mosaic_HH x _ i j rfl rfl,
    mask_at w _ i j 1 1 (by show 64 + i.val = 64 * 1 + i.val; omega) (by show 64 + j.val = 64 * 1 + j.val; omega)]
  rfl

/-! ## The four output pixels of every block -/

theorem v41_at (i j : Fin 64) : val_main_v41 (F := Ideal) x w (ix2 i j) = oA (pix x i j) (msk w i j) := by
  rw [val_main_v41_apply, val_main_v39_apply, val_main_v38_apply, val_main_v37_apply, val_main_v40_apply,
    val_main_cst_3_apply, v33_at, v34_at, v35_at, v36_at]
  rfl

theorem v46_at (i j : Fin 64) : val_main_v46 (F := Ideal) x w (ix2 i j) = oB (pix x i j) (msk w i j) := by
  rw [val_main_v46_apply, val_main_v44_apply, val_main_v43_apply, val_main_v42_apply, val_main_v45_apply,
    val_main_cst_4_apply, v33_at, v34_at, v35_at, v36_at]
  rfl

theorem v51_at (i j : Fin 64) : val_main_v51 (F := Ideal) x w (ix2 i j) = oC (pix x i j) (msk w i j) := by
  rw [val_main_v51_apply, val_main_v49_apply, val_main_v48_apply, val_main_v47_apply, val_main_v50_apply,
    val_main_cst_5_apply, v33_at, v34_at, v35_at, v36_at]
  rfl

theorem v56_at (i j : Fin 64) : val_main_v56 (F := Ideal) x w (ix2 i j) = oD (pix x i j) (msk w i j) := by
  rw [val_main_v56_apply, val_main_v54_apply, val_main_v53_apply, val_main_v52_apply, val_main_v55_apply,
    val_main_cst_6_apply, v33_at, v34_at, v35_at, v36_at]
  rfl

/-! ## The interleave: the four results as the pixels of the output blocks

Each 64×64 result gets a trailing unit axis; the pairs (A, B) and (C, D) are joined along it (the column
inside the block); each 64×64×2 array gets a unit axis in second place, and the two are joined along that
(the row inside the block): entry (i, r, j, s) of the 64×2×64×2 array is output pixel (r, s) of block (i, j). -/

theorem e57 (i j : Fin 64) : idx_main_v57 (ix3 i j (0 : Fin 1)) = ix2 i j :=
  funext fun a => match a with | ⟨0, _⟩ => rfl | ⟨1, _⟩ => rfl
theorem e58 (i j : Fin 64) : idx_main_v58 (ix3 i j (0 : Fin 1)) = ix2 i j :=
  funext fun a => match a with | ⟨0, _⟩ => rfl | ⟨1, _⟩ => rfl
theorem e60 (i j : Fin 64) : idx_main_v60 (ix3 i j (0 : Fin 1)) = ix2 i j :=
  funext fun a => match a with | ⟨0, _⟩ => rfl | ⟨1, _⟩ => rfl
theorem e61 (i j : Fin 64) : idx_main_v61 (ix3 i j (0 : Fin 1)) = ix2 i j :=
  funext fun a => match a with | ⟨0, _⟩ => rfl | ⟨1, _⟩ => rfl

theorem blocks_A (q : S64x2x64x2.Idx) (i j : Fin 64)
    (h0 : (q 0).val = i.val) (h1 : (q 1).val = 0) (h2 : (q 2).val = j.val) (h3 : (q 3).val = 0) :
    val_main_v65 (F := Ideal) x w q = oA (pix x i j) (msk w i j) := by
  unfold val_main_v65
  refine (concatenate_pair_apply_left _ _ _ concatenates_S64x1x64x2_S64x1x64x2_S64x2x64x2_d1 q rfl
    (ix4 i (0 : Fin 1) j (⟨(q 3).val, (q 3).isLt⟩ : Fin 2))
    (fun b => match b with | ⟨0, _⟩ => h0.symm | ⟨1, _⟩ => h1.symm | ⟨2, _⟩ => h2.symm | ⟨3, _⟩ => rfl)).trans ?_
  rw [val_main_v63_apply]
  unfold val_main_v59
  refine (concatenate_pair_apply_left _ _ _ concatenates_S64x64x1_S64x64x1_S64x64x2_d2 _ rfl
    (ix3 i j (0 : Fin 1)) (fun b => match b with | ⟨0, _⟩ => rfl | ⟨1, _⟩ => rfl | ⟨2, _⟩ => by exact h3.symm)).trans ?_
  rw [val_main_v57_apply, e57]
  exact v41_at x w i j

theorem blocks_B (q : S64x2x64x2.Idx) (i j : Fin 64)
    (h0 : (q 0).val = i.val) (h1 : (q 1).val = 0) (h2 : (q 2).val = j.val) (h3 : (q 3).val = 1) :
    val_main_v65 (F := Ideal) x w q = oB (pix x i j) (msk w i j) := by
  unfold val_main_v65
  refine (concatenate_pair_apply_left _ _ _ concatenates_S64x1x64x2_S64x1x64x2_S64x2x64x2_d1 q rfl
    (ix4 i (0 : Fin 1) j (⟨(q 3).val, (q 3).isLt⟩ : Fin 2))
    (fun b => match b with | ⟨0, _⟩ => h0.symm | ⟨1, _⟩ => h1.symm | ⟨2, _⟩ => h2.symm | ⟨3, _⟩ => rfl)).trans ?_
  rw [val_main_v63_apply]
  unfold val_main_v59
  refine (concatenate_pair_apply_right _ _ _ concatenates_S64x64x1_S64x64x1_S64x64x2_d2 _ rfl rfl
    (ix3 i j (0 : Fin 1))
    (fun b => match b with | ⟨0, _⟩ => fun _ => rfl | ⟨1, _⟩ => fun _ => rfl | ⟨2, _⟩ => fun hne => absurd rfl hne)
    (by show 0 + 1 = (q 3).val; omega)).trans ?_
  rw [val_main_v58_apply, e58]
  exact v46_at x w i j

theorem blocks_C (q : S64x2x64x2.Idx) (i j : Fin 64)
    (h0 : (q 0).val = i.val) (h1 : (q 1).val = 1) (h2 : (q 2).val = j.val) (h3 : (q 3).val = 0) :
    val_main_v65 (F := Ideal) x w q = oC (pix x i j) (msk w i j) := by
  unfold val_main_v65
  refine (concatenate_pair_apply_right _ _ _ concatenates_S64x1x64x2_S64x1x64x2_S64x2x64x2_d1 q rfl rfl
    (ix4 i (0 : Fin 1) j (⟨(q 3).val, (q 3).isLt⟩ : Fin 2))
    (fun b => match b with | ⟨0, _⟩ => fun _ => h0.symm | ⟨1, _⟩ => fun hne => absurd rfl hne | ⟨2, _⟩ => fun _ => h2.symm | ⟨3, _⟩ => fun _ => rfl)
    (by show 0 + 1 = (q 1).val; omega)).trans ?_
  rw [val_main_v64_apply]
  unfold val_main_v62
  refine (concatenate_pair_apply_left _ _ _ concatenates_S64x64x1_S64x64x1_S64x64x2_d2 _ rfl
    (ix3 i j (0 : Fin 1)) (fun b => match b with | ⟨0, _⟩ => rfl | ⟨1, _⟩ => rfl | ⟨2, _⟩ => by exact h3.symm)).trans ?_
  rw [val_main_v60_apply, e60]
  exact v51_at x w i j

theorem blocks_D (q : S64x2x64x2.Idx) (i j : Fin 64)
    (h0 : (q 0).val = i.val) (h1 : (q 1).val = 1) (h2 : (q 2).val = j.val) (h3 : (q 3).val = 1) :
    val_main_v65 (F := Ideal) x w q = oD (pix x i j) (msk w i j) := by
  unfold val_main_v65
  refine (concatenate_pair_apply_right _ _ _ concatenates_S64x1x64x2_S64x1x64x2_S64x2x64x2_d1 q rfl rfl
    (ix4 i (0 : Fin 1) j (⟨(q 3).val, (q 3).isLt⟩ : Fin 2))
    (fun b => match b with | ⟨0, _⟩ => fun _ => h0.symm | ⟨1, _⟩ => fun hne => absurd rfl hne | ⟨2, _⟩ => fun _ => h2.symm | ⟨3, _⟩ => fun _ => rfl)
    (by show 0 + 1 = (q 1).val; omega)).trans ?_
  rw [val_main_v64_apply]
  unfold val_main_v62
  refine (concatenate_pair_apply_right _ _ _ concatenates_S64x64x1_S64x64x1_S64x64x2_d2 _ rfl rfl
    (ix3 i j (0 : Fin 1))
    (fun b => match b with | ⟨0, _⟩ => fun _ => rfl | ⟨1, _⟩ => fun _ => rfl | ⟨2, _⟩ => fun hne => absurd rfl hne)
    (by show 0 + 1 = (q 3).val; omega)).trans ?_
  rw [val_main_v61_apply, e61]
  exact v56_at x w i j

/-! ## The whole reference -/

/-- The reference's result is the masked Haar round trip: the 64×2×64×2 array of output blocks reshaped to a
    plane puts block (i, j)'s pixel (r, s) at (2i + r, 2j + s). -/
theorem ref_eq : val_main_v67 (F := Ideal) x w = result x w := by
  refine eq_result _ x w ?_ ?_ ?_ ?_
  · intro k i j h2 h3
    have hi := i.isLt; have hj := j.isLt
    rw [val_main_v67_apply, val_main_v66_apply]
    exact blocks_A x w _ i j (by show ((k 2).val * 128 + (k 3).val) / 256 = i.val; omega)
      (by show ((k 2).val * 128 + (k 3).val) / 128 % 2 = 0; omega)
      (by show ((k 2).val * 128 + (k 3).val) / 2 % 64 = j.val; omega)
      (by show ((k 2).val * 128 + (k 3).val) % 2 = 0; omega)
  · intro k i j h2 h3
    have hi := i.isLt; have hj := j.isLt
    rw [val_main_v67_apply, val_main_v66_apply]
    exact blocks_B x w _ i j (by show ((k 2).val * 128 + (k 3).val) / 256 = i.val; omega)
      (by show ((k 2).val * 128 + (k 3).val) / 128 % 2 = 0; omega)
      (by show ((k 2).val * 128 + (k 3).val) / 2 % 64 = j.val; omega)
      (by show ((k 2).val * 128 + (k 3).val) % 2 = 1; omega)
  · intro k i j h2 h3
    have hi := i.isLt; have hj := j.isLt
    rw [val_main_v67_apply, val_main_v66_apply]
    exact blocks_C x w _ i j (by show ((k 2).val * 128 + (k 3).val) / 256 = i.val; omega)
      (by show ((k 2).val * 128 + (k 3).val) / 128 % 2 = 1; omega)
      (by show ((k 2).val * 128 + (k 3).val) / 2 % 64 = j.val; omega)
      (by show ((k 2).val * 128 + (k 3).val) % 2 = 0; omega)
  · intro k i j h2 h3
    have hi := i.isLt; have hj := j.isLt
    rw [val_main_v67_apply, val_main_v66_apply]
    exact blocks_D x w _ i j (by show ((k 2).val * 128 + (k 3).val) / 256 = i.val; omega)
      (by show ((k 2).val * 128 + (k 3).val) / 128 % 2 = 1; omega)
      (by show ((k 2).val * 128 + (k 3).val) / 2 % 64 = j.val; omega)
      (by show ((k 2).val * 128 + (k 3).val) % 2 = 1; omega)

end Cert.ReferenceIdeal.RefValue

end
-- ==== Proof.lean ====
/-
  A masked Haar round trip, fused in one kernel, against the same thing in jnp.

  Both programs take a 128×128 image x and a 128×128 mask w (each carried as 1×1×128×128) and return the
  level-1 two-dimensional Haar transform of x, multiplied entry by entry by w laid over the four sub-bands as a
  mosaic [[LL, LH], [HL, HH]], and transformed back.  On each 2×2 block a, b / c, d of x the transform is the
  butterfly (a ± b ± c ± d)/2 with the four sign patterns, and the inverse is the same butterfly on the four
  masked values; both programs add and subtract in the same order and halve by the same constant, so at each
  index they compute ONE term of the extended reals: nothing is regrouped, and finiteness of the inputs is
  never used.

  What differs is where the numbers are kept.  The reference slices the four pixels of every block out of a
  64×2×64×2 view, joins the four sub-bands into the mosaic, cuts the masked mosaic back into quadrants, and
  interleaves the four results by two joins and a reshape.  The kernel's wrapper de-interleaves x first (reshape,
  swap the axes in pairs, reshape: pixel (r, s) of block (i, j) goes to entry (i, j) of quadrant (r, s)), the
  kernel body works on whole quadrants of its one 128×128 block, and the wrapper re-interleaves the result.

  `Haar.lean` states the common function (`Haar.result`); `RefRun.lean` runs the reference's line of operations
  stretch by stretch to its last stage, and `RefStages.lean` reads the stages down to `Haar.result`;
  `HaarLayout.lean`, `KernelBody.lean` and `KernelValue.lean` read the wrapper's two rearrangements, the body's four
  stores and the kernel's run down to it.  Here the five claims are assembled: the three runs
  terminate with the arguments unchanged, the idealization rewrote nothing, and the two idealized programs end
  at the same array.
-/
import proofs.«428757_j74019466379564_3_alg».proof.Defs
import proofs.«428757_j74019466379564_3_alg».proof.Proof.Gen.Kernel
import proofs.«428757_j74019466379564_3_alg».proof.Proof.Gen.Kernel.Skeleton
import proofs.«428757_j74019466379564_3_alg».proof.Proof.Gen.Kernel.Launch
import proofs.«428757_j74019466379564_3_alg».proof.Proof.Gen.Kernel.Points
import proofs.«428757_j74019466379564_3_alg».proof.Proof.Gen.Kernel.Frame
import proofs.«428757_j74019466379564_3_alg».proof.Proof.Gen.KernelIdeal
import proofs.«428757_j74019466379564_3_alg».proof.Proof.Gen.KernelIdeal.Skeleton
import proofs.«428757_j74019466379564_3_alg».proof.Proof.Gen.KernelIdeal.Launch
import proofs.«428757_j74019466379564_3_alg».proof.Proof.Gen.KernelIdeal.Points
import proofs.«428757_j74019466379564_3_alg».proof.Proof.Gen.KernelIdeal.Frame
import proofs.«428757_j74019466379564_3_alg».proof.Proof.Gen.ReferenceIdeal
import proofs.«428757_j74019466379564_3_alg».proof.Proof.Gen.Pre_finite_inputs
import proofs.«428757_j74019466379564_3_alg».proof.Proof.RefRun
import proofs.«428757_j74019466379564_3_alg».proof.Proof.KernelValue
import proofs.«428757_j74019466379564_3_alg».proof.Proof.RefStages
import Idealize.ShloMosaic.Adequacy
import Idealize.ShloMosaic.Init

noncomputable section

namespace Cert.Proof

open Idealize.ShloMosaic Idealize.SL.Sem

/-- The kernel as printed runs, its arguments unchanged. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories that agree on the image and the mask, the kernel ends at `Haar.result` of them (its run read as a
    value) and so does the reference (its run, read stage by stage). -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨?_, (h c).2⟩)
    (Cert.ReferenceIdeal.RefRun.run (F := Ideal) m' ρ')
  rw [(h c).1, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
